-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_
  bcast_S_S50000 : S_.BroadcastsInDim S50000 (![] : Fin 0 → Fin S50000.rank)
  reducesTo_S50000_S_d0 : S50000.ReducesTo [0] S_

variable [Facts]

def fn_part5 {F : FTy → Type} [FloatOps F] (main_arg2 : IVec S50000 32) (main_v83 : IVec S_ 1) (main_v84 : IVec S50000 32) : IVec S_ 1 :=
  let main_v85 : IVec S50000 1 := cmpi .sge main_arg2 main_v84
  let main_c_33 : IVec S_ 1 := constantI S_ 1 1#1
  let main_v86 : IVec S_ 1 := (fun x v => Host.reduce IntOp.andi x v reducesTo_S50000_S_d0 h_S_) main_v85 main_c_33
  let main_v87 : IVec S_ 1 := andi main_v83 main_v86
  main_v87

def fn_part4 {F : FTy → Type} [FloatOps F] (main_arg2 : IVec S50000 32) (main_arg16 : FVec F S128 .f32) (main_arg17 : FVec F S128x10 .f32) (main_arg18 : FVec F S10 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x10 .f32 := Host.absf main_arg17
  let main_cst_28 : FVec F S_ .f32 := constant S_ .f32 0x7F800000#32
  let main_v75 : FVec F S128x10 .f32 := broadcastInDim S128x10 ![] bcast_S_S128x10 main_cst_28
  let main_v76 : IVec S128x10 1 := cmpf .olt main_v74 main_v75
  let main_c_29 : IVec S_ 1 := constantI S_ 1 1#1
  let main_v77 : IVec S_ 1 := (fun x v => Host.reduce IntOp.andi x v reducesTo_S128x10_S_d0_1 h_S_) main_v76 main_c_29
  let main_v78 : IVec S_ 1 := andi main_v73 main_v77
  let main_v79 : FVec F S10 .f32 := Host.absf main_arg18
  let main_cst_30 : FVec F S_ .f32 := constant S_ .f32 0x7F800000#32
  let main_v80 : FVec F S10 .f32 := broadcastInDim S10 ![] bcast_S_S10 main_cst_30
  let main_v81 : IVec S10 1 := cmpf .olt main_v79 main_v80
  let main_c_31 : IVec S_ 1 := constantI S_ 1 1#1
  let main_v82 : IVec S_ 1 := (fun x v => Host.reduce IntOp.andi x v reducesTo_S10_S_d0 h_S_) main_v81 main_c_31
  let main_v83 : IVec S_ 1 := andi main_v78 main_v82
  let main_c_32 : IVec S_ 32 := constantI S_ 32 0#32
  let main_v84 : IVec S50000 32 := broadcastInDim S50000 ![] bcast_S_S50000 main_c_32
  fn_part5 (F := F) main_arg2 main_v83 main_v84

def fn_part3 {F : FTy → Type} [FloatOps F] (main_arg2 : IVec S50000 32) (main_arg13 : FVec F S128x128 .f32) (main_arg14 : FVec F S128 .f32) (main_arg15 : FVec F S128x128 .f32) (main_arg16 : FVec F S128 .f32) (main_arg17 : FVec F S128x10 .f32) (main_arg18 : FVec F S10 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg2 main_arg16 main_arg17 main_arg18 main_v63 main_v67

def fn_part2 {F : FTy → Type} [FloatOps F] (main_arg2 : IVec S50000 32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x10 .f32) (main_arg18 : FVec F S10 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg2 main_arg13 main_arg14 main_arg15 main_arg16 main_arg17 main_arg18 main_v48 main_v49 main_v50

def fn_part1 {F : FTy → Type} [FloatOps F] (main_arg2 : IVec S50000 32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x10 .f32) (main_arg18 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_arg9 main_arg10 main_arg11 main_arg12 main_arg13 main_arg14 main_arg15 main_arg16 main_arg17 main_arg18 main_v33

def fn {F : FTy → Type} [FloatOps F] (main_arg0 : FVec F S50000x128 .f32) (main_arg1 : IVec S2x600000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x10 .f32) (main_arg18 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_arg6 main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S5000x128 : Shape := ⟨2, ![5000, 128]⟩
abbrev S1x128 : Shape := ⟨2, ![1, 128]⟩
abbrev S1x64 : Shape := ⟨2, ![1, 64]⟩
abbrev S50000x1 : Shape := ⟨2, ![50000, 1]⟩
abbrev S50000x64 : Shape := ⟨2, ![50000, 64]⟩
abbrev S10x64x128 : Shape := ⟨3, ![10, 64, 128]⟩
abbrev S5000x64 : Shape := ⟨2, ![5000, 64]⟩
abbrev S1x64x128 : Shape := ⟨3, ![1, 64, 128]⟩
abbrev S64x128 : Shape := ⟨2, ![64, 128]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 132
  | .vmem => 26
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128x10, .f32⟩
  | 18 => ⟨S10, .f32⟩
  | 19 => ⟨S1x600000, .i32⟩
  | 20 => ⟨S600000, .i32⟩
  | 21 => ⟨S1x600000, .i32⟩
  | 22 => ⟨S600000, .i32⟩
  | 23 => ⟨S_, .i32⟩
  | 24 => ⟨S600000, .i32⟩
  | 25 => ⟨S600000, .i1⟩
  | 26 => ⟨S_, .i32⟩
  | 27 => ⟨S600000, .i32⟩
  | 28 => ⟨S600000, .i32⟩
  | 29 => ⟨S600000, .i32⟩
  | 30 => ⟨S600000x1, .i32⟩
  | 31 => ⟨S600000x128, .f32⟩
  | 32 => ⟨S_, .i32⟩
  | 33 => ⟨S600000, .i32⟩
  | 34 => ⟨S600000, .i1⟩
  | 35 => ⟨S_, .i32⟩
  | 36 => ⟨S600000, .i32⟩
  | 37 => ⟨S600000, .i32⟩
  | 38 => ⟨S600000, .i32⟩
  | 39 => ⟨S600000x1, .i32⟩
  | 40 => ⟨S50000x128, .f32⟩
  | 41 => ⟨S50000x128, .f32⟩
  | 42 => ⟨S_, .i32⟩
  | 43 => ⟨S600000, .i32⟩
  | 44 => ⟨S600000, .i1⟩
  | 45 => ⟨S_, .i32⟩
  | 46 => ⟨S600000, .i32⟩
  | 47 => ⟨S600000, .i32⟩
  | 48 => ⟨S600000, .i32⟩
  | 49 => ⟨S600000x1, .i32⟩
  | 50 => ⟨S600000x128, .f32⟩
  | 51 => ⟨S_, .i32⟩
  | 52 => ⟨S600000, .i32⟩
  | 53 => ⟨S600000, .i1⟩
  | 54 => ⟨S_, .i32⟩
  | 55 => ⟨S600000, .i32⟩
  | 56 => ⟨S600000, .i32⟩
  | 57 => ⟨S600000, .i32⟩
  | 58 => ⟨S600000x1, .i32⟩
  | 59 => ⟨S50000x128, .f32⟩
  | 60 => ⟨S50000x128, .f32⟩
  | 61 => ⟨S_, .i32⟩
  | 62 => ⟨S600000, .i32⟩
  | 63 => ⟨S600000, .i1⟩
  | 64 => ⟨S_, .i32⟩
  | 65 => ⟨S600000, .i32⟩
  | 66 => ⟨S600000, .i32⟩
  | 67 => ⟨S600000, .i32⟩
  | 68 => ⟨S600000x1, .i32⟩
  | 69 => ⟨S600000x128, .f32⟩
  | 70 => ⟨S_, .i32⟩
  | 71 => ⟨S600000, .i32⟩
  | 72 => ⟨S600000, .i1⟩
  | 73 => ⟨S_, .i32⟩
  | 74 => ⟨S600000, .i32⟩
  | 75 => ⟨S600000, .i32⟩
  | 76 => ⟨S600000, .i32⟩
  | 77 => ⟨S600000x1, .i32⟩
  | 78 => ⟨S50000x128, .f32⟩
  | 79 => ⟨S1x64, .i32⟩
  | 80 => ⟨S50000x1, .i32⟩
  | 81 => ⟨S50000x64, .i32⟩
  | 82 => ⟨S50000x64, .i32⟩
  | 83 => ⟨S50000x64, .i1⟩
  | 84 => ⟨S50000x64, .bf16⟩
  | 85 => ⟨S10x64x128, .f32⟩
  | 86 => ⟨S_, .f32⟩
  | 87 => ⟨S64x128, .f32⟩
  | 88 => ⟨S_, .f32⟩
  | 89 => ⟨S64, .f32⟩
  | 90 => ⟨S_, .i32⟩
  | 91 => ⟨S50000, .i32⟩
  | 92 => ⟨S50000, .i1⟩
  | 93 => ⟨S_, .i32⟩
  | 94 => ⟨S50000, .i32⟩
  | 95 => ⟨S50000, .i32⟩
  | 96 => ⟨S50000, .i32⟩
  | 97 => ⟨S50000x1, .i32⟩
  | 98 => ⟨S_, .f32⟩
  | 99 => ⟨S50000, .f32⟩
  | 100 => ⟨S64, .f32⟩
  | 101 => ⟨S_, .f32⟩
  | 102 => ⟨S64, .f32⟩
  | 103 => ⟨S64, .f32⟩
  | 104 => ⟨S64x1, .f32⟩
  | 105 => ⟨S64x128, .f32⟩
  | 106 => ⟨S64x128, .f32⟩
  | 107 => ⟨S64x128, .f32⟩
  | 108 => ⟨S1x128, .f32⟩
  | 109 => ⟨S64x128, .f32⟩
  | 110 => ⟨S64x128, .f32⟩
  | 111 => ⟨S_, .f32⟩
  | 112 => ⟨S64x128, .f32⟩
  | 113 => ⟨S64x128, .f32⟩
  | 114 => ⟨S64x10, .f32⟩
  | 115 => ⟨S1x10, .f32⟩
  | 116 => ⟨S64x10, .f32⟩
  | 117 => ⟨S64x10, .f32⟩
  | 118 => ⟨S_, .f32⟩
  | 119 => ⟨S64, .f32⟩
  | 120 => ⟨S_, .f32⟩
  | 121 => ⟨S64, .f32⟩
  | 122 => ⟨S64, .f32⟩
  | 123 => ⟨S64x1, .f32⟩
  | 124 => ⟨S64x10, .f32⟩
  | 125 => ⟨S64x10, .f32⟩
  | 126 => ⟨S64x10, .f32⟩
  | 127 => ⟨S_, .f32⟩
  | _ => ⟨S50000x128, .f32⟩

abbrev hbmTy0_1 (i : Nat) : BufTy := match i % 128 with
  | 0 => ⟨S64, .f32⟩
  | 1 => ⟨S64x1, .f32⟩
  | 2 => ⟨S64x10, .f32⟩
  | 3 => ⟨S64x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S128, .f32⟩
  | .local _ .vmem, ⟨20, _⟩ => ⟨S128x128, .f32⟩
  | .local _ .vmem, ⟨21, _⟩ => ⟨S128, .f32⟩
  | .local _ .vmem, ⟨22, _⟩ => ⟨S5000x64, .bf16⟩
  | .local _ .vmem, ⟨23, _⟩ => ⟨S5000x64, .bf16⟩
  | .local _ .vmem, ⟨24, _⟩ => ⟨S1x64x128, .f32⟩
  | .local _ .vmem, ⟨25, _⟩ => ⟨S1x64x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_1 : Ref sig .tc := ⟨.hbm, 32, rfl⟩
abbrev main_v11 : Ref sig .tc := ⟨.hbm, 33, rfl⟩
abbrev main_v12 : Ref sig .tc := ⟨.hbm, 34, rfl⟩
abbrev main_c_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c_3 : Ref sig .tc := ⟨.hbm, 42, rfl⟩
abbrev main_v19 : Ref sig .tc := ⟨.hbm, 43, rfl⟩
abbrev main_v20 : Ref sig .tc := ⟨.hbm, 44, rfl⟩
abbrev main_c_4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_c_5 : Ref sig .tc := ⟨.hbm, 51, rfl⟩
abbrev main_v26 : Ref sig .tc := ⟨.hbm, 52, rfl⟩
abbrev main_v27 : Ref sig .tc := ⟨.hbm, 53, rfl⟩
abbrev main_c_6 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_7 : Ref sig .tc := ⟨.hbm, 61, rfl⟩
abbrev main_v34 : Ref sig .tc := ⟨.hbm, 62, rfl⟩
abbrev main_v35 : Ref sig .tc := ⟨.hbm, 63, rfl⟩
abbrev main_c_8 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_c_9 : Ref sig .tc := ⟨.hbm, 70, rfl⟩
abbrev main_v41 : Ref sig .tc := ⟨.hbm, 71, rfl⟩
abbrev main_v42 : Ref sig .tc := ⟨.hbm, 72, rfl⟩
abbrev main_c_10 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst : Ref sig .tc := ⟨.hbm, 86, rfl⟩
abbrev main_v55 : Ref sig .tc := ⟨.hbm, 87, rfl⟩
abbrev main_cst_11 : Ref sig .tc := ⟨.hbm, 88, rfl⟩
abbrev main_v56 : Ref sig .tc := ⟨.hbm, 89, rfl⟩
abbrev main_c_12 : Ref sig .tc := ⟨.hbm, 90, rfl⟩
abbrev main_v57 : Ref sig .tc := ⟨.hbm, 91, rfl⟩
abbrev main_v58 : Ref sig .tc := ⟨.hbm, 92, rfl⟩
abbrev main_c_13 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_14 : Ref sig .tc := ⟨.hbm, 98, rfl⟩
abbrev main_v63 : Ref sig .tc := ⟨.hbm, 99, rfl⟩
abbrev main_v64 : Ref sig .tc := ⟨.hbm, 100, rfl⟩
abbrev main_cst_15 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_call0_cst : Ref sig .tc := ⟨.hbm, 111, rfl⟩
abbrev main_call0_v0 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_16 : Ref sig .tc := ⟨.hbm, 118, rfl⟩
abbrev main_v79 : Ref sig .tc := ⟨.hbm, 119, rfl⟩
abbrev main_cst_17 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_18 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg6_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc2_sem6_0 : DmaSem sig := 24
abbrev cc2_sem6_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x64x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  shapeCasts_S50000_S50000x1 : S50000.ShapeCasts S50000x1
  bcast_S50000x1_S50000x64_0_1 : S50000x1.BroadcastsInDim S50000x64 (![0, 1] : Fin 2 → Fin S50000x64.rank)
  bcast_S1x64_S50000x64_0_1 : S1x64.BroadcastsInDim S50000x64 (![0, 1] : Fin 2 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  reducesTo_S10x64x128_S64x128_d0 : S10x64x128.ReducesTo [0] S64x128
  h_S_ : 0 < S_.numel
  bcast_S_S64 : S_.BroadcastsInDim S64 (![] : Fin 0 → Fin S64.rank)
  bcast_S_S50000 : S_.BroadcastsInDim S50000 (![] : Fin 0 → Fin S50000.rank)
  bcast_S50000_S50000x1_0 : S50000.BroadcastsInDim S50000x1 (![0] : Fin 1 → Fin S50000x1.rank)
  shapeCasts_S64_S64x1 : S64.ShapeCasts S64x1
  bcast_S64x1_S64x128_0_1 : S64x1.BroadcastsInDim S64x128 (![0, 1] : Fin 2 → Fin S64x128.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  reducesTo_S64x10_S64_d1 : S64x10.ReducesTo [1] S64
  bcast_S64_S64x1_0 : S64.BroadcastsInDim S64x1 (![0] : Fin 1 → Fin S64x1.rank)
  bcast_S64x1_S64x10_0_1 : S64x1.BroadcastsInDim S64x10 (![0, 1] : Fin 2 → Fin S64x10.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x64_S5000x128_S64x128_0_0_1_1_n_n_wf : DotDims.WF S5000x64 S5000x128 S64x128 [0] [0] [1] [1] [] []
  scatter_S64_S50000x1_S50000_n_0_0_1_wf : ScatterDims.WF S64 S50000x1 S50000 [] [0] [0] 1
  dot_S64x128_S128x128_S64x128_1_0_0_1_n_n_wf : DotDims.WF S64x128 S128x128 S64x128 [1] [0] [0] [1] [] []
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .bf16 = 32 ∨ (Rect.block (s := S50000x64) S5000x64.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x64x128.size a ≤ S10x64x128.size a
  hwx2_6 : ∀ i : grid2.Coords, EltTy.bits .f32 = 32 ∨ (Rect.block (s := S10x64x128) S1x64x128.size (cc2_transform_6 i) (hinb2_6 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_v17) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v32) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S5000x64.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v54) S1x64x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 191
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128x10, .f32⟩
  | 18 => ⟨S10, .f32⟩
  | 19 => ⟨S1x600000, .i32⟩
  | 20 => ⟨S600000, .i32⟩
  | 21 => ⟨S1x600000, .i32⟩
  | 22 => ⟨S600000, .i32⟩
  | 23 => ⟨S_, .f32⟩
  | 24 => ⟨S50000x128, .f32⟩
  | 25 => ⟨S_, .i32⟩
  | 26 => ⟨S600000, .i32⟩
  | 27 => ⟨S600000, .i1⟩
  | 28 => ⟨S_, .i32⟩
  | 29 => ⟨S600000, .i32⟩
  | 30 => ⟨S600000, .i32⟩
  | 31 => ⟨S600000, .i32⟩
  | 32 => ⟨S600000x1, .i32⟩
  | 33 => ⟨S600000x128, .f32⟩
  | 34 => ⟨S_, .i32⟩
  | 35 => ⟨S600000, .i32⟩
  | 36 => ⟨S600000, .i1⟩
  | 37 => ⟨S_, .i32⟩
  | 38 => ⟨S600000, .i32⟩
  | 39 => ⟨S600000, .i32⟩
  | 40 => ⟨S600000, .i32⟩
  | 41 => ⟨S600000x1, .i32⟩
  | 42 => ⟨S50000x128, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S_, .f32⟩
  | 49 => ⟨S50000x128, .f32⟩
  | 50 => ⟨S50000x128, .f32⟩
  | 51 => ⟨S50000x128, .f32⟩
  | 52 => ⟨S1x128, .f32⟩
  | 53 => ⟨S50000x128, .f32⟩
  | 54 => ⟨S50000x128, .f32⟩
  | 55 => ⟨S_, .f32⟩
  | 56 => ⟨S50000x128, .f32⟩
  | 57 => ⟨S50000x128, .f32⟩
  | 58 => ⟨S1x600000, .i32⟩
  | 59 => ⟨S600000, .i32⟩
  | 60 => ⟨S1x600000, .i32⟩
  | 61 => ⟨S600000, .i32⟩
  | 62 => ⟨S_, .f32⟩
  | 63 => ⟨S50000x128, .f32⟩
  | 64 => ⟨S_, .i32⟩
  | 65 => ⟨S600000, .i32⟩
  | 66 => ⟨S600000, .i1⟩
  | 67 => ⟨S_, .i32⟩
  | 68 => ⟨S600000, .i32⟩
  | 69 => ⟨S600000, .i32⟩
  | 70 => ⟨S600000, .i32⟩
  | 71 => ⟨S600000x1, .i32⟩
  | 72 => ⟨S600000x128, .f32⟩
  | 73 => ⟨S_, .i32⟩
  | 74 => ⟨S600000, .i32⟩
  | 75 => ⟨S600000, .i1⟩
  | 76 => ⟨S_, .i32⟩
  | 77 => ⟨S600000, .i32⟩
  | 78 => ⟨S600000, .i32⟩
  | 79 => ⟨S600000, .i32⟩
  | 80 => ⟨S600000x1, .i32⟩
  | 81 => ⟨S50000x128, .f32⟩
  | 82 => ⟨S50000x128, .f32⟩
  | 83 => ⟨S50000x128, .f32⟩
  | 84 => ⟨S1x128, .f32⟩
  | 85 => ⟨S50000x128, .f32⟩
  | 86 => ⟨S50000x128, .f32⟩
  | 87 => ⟨S_, .f32⟩
  | 88 => ⟨S50000x128, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S1x600000, .i32⟩
  | 98 => ⟨S600000, .i32⟩
  | 99 => ⟨S1x600000, .i32⟩
  | 100 => ⟨S600000, .i32⟩
  | 101 => ⟨S_, .f32⟩
  | 102 => ⟨S50000x128, .f32⟩
  | 103 => ⟨S_, .i32⟩
  | 104 => ⟨S600000, .i32⟩
  | 105 => ⟨S600000, .i1⟩
  | 106 => ⟨S_, .i32⟩
  | 107 => ⟨S600000, .i32⟩
  | 108 => ⟨S600000, .i32⟩
  | 109 => ⟨S600000, .i32⟩
  | 110 => ⟨S600000x1, .i32⟩
  | 111 => ⟨S600000x128, .f32⟩
  | 112 => ⟨S_, .i32⟩
  | 113 => ⟨S600000, .i32⟩
  | 114 => ⟨S600000, .i1⟩
  | 115 => ⟨S_, .i32⟩
  | 116 => ⟨S600000, .i32⟩
  | 117 => ⟨S600000, .i32⟩
  | 118 => ⟨S600000, .i32⟩
  | 119 => ⟨S600000x1, .i32⟩
  | 120 => ⟨S50000x128, .f32⟩
  | 121 => ⟨S50000x128, .f32⟩
  | 122 => ⟨S50000x128, .f32⟩
  | 123 => ⟨S1x128, .f32⟩
  | 124 => ⟨S50000x128, .f32⟩
  | 125 => ⟨S50000x128, .f32⟩
  | 126 => ⟨S_, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S1x128, .f32⟩
  | 3 => ⟨S50000x128, .f32⟩
  | 4 => ⟨S50000x128, .f32⟩
  | 5 => ⟨S_, .f32⟩
  | 6 => ⟨S50000x128, .f32⟩
  | 7 => ⟨S50000x128, .f32⟩
  | 8 => ⟨S_, .f32⟩
  | 9 => ⟨S64x128, .f32⟩
  | 10 => ⟨S_, .i32⟩
  | 11 => ⟨S50000, .i32⟩
  | 12 => ⟨S50000, .i1⟩
  | 13 => ⟨S_, .i32⟩
  | 14 => ⟨S50000, .i32⟩
  | 15 => ⟨S50000, .i32⟩
  | 16 => ⟨S50000, .i32⟩
  | 17 => ⟨S50000x1, .i32⟩
  | 18 => ⟨S64x128, .f32⟩
  | 19 => ⟨S_, .f32⟩
  | 20 => ⟨S64, .f32⟩
  | 21 => ⟨S_, .i32⟩
  | 22 => ⟨S50000, .i32⟩
  | 23 => ⟨S50000, .i1⟩
  | 24 => ⟨S_, .i32⟩
  | 25 => ⟨S50000, .i32⟩
  | 26 => ⟨S50000, .i32⟩
  | 27 => ⟨S50000, .i32⟩
  | 28 => ⟨S50000x1, .i32⟩
  | 29 => ⟨S_, .f32⟩
  | 30 => ⟨S50000, .f32⟩
  | 31 => ⟨S64, .f32⟩
  | 32 => ⟨S_, .f32⟩
  | 33 => ⟨S64, .f32⟩
  | 34 => ⟨S64, .f32⟩
  | 35 => ⟨S64x1, .f32⟩
  | 36 => ⟨S64x128, .f32⟩
  | 37 => ⟨S64x128, .f32⟩
  | 38 => ⟨S64x128, .f32⟩
  | 39 => ⟨S1x128, .f32⟩
  | 40 => ⟨S64x128, .f32⟩
  | 41 => ⟨S64x128, .f32⟩
  | 42 => ⟨S_, .f32⟩
  | 43 => ⟨S64x128, .f32⟩
  | 44 => ⟨S64x128, .f32⟩
  | 45 => ⟨S64x10, .f32⟩
  | 46 => ⟨S1x10, .f32⟩
  | 47 => ⟨S64x10, .f32⟩
  | 48 => ⟨S64x10, .f32⟩
  | 49 => ⟨S_, .f32⟩
  | 50 => ⟨S64, .f32⟩
  | 51 => ⟨S_, .f32⟩
  | 52 => ⟨S64, .f32⟩
  | 53 => ⟨S64, .f32⟩
  | 54 => ⟨S64x1, .f32⟩
  | 55 => ⟨S64x10, .f32⟩
  | 56 => ⟨S64x10, .f32⟩
  | 57 => ⟨S64x10, .f32⟩
  | 58 => ⟨S_, .f32⟩
  | 59 => ⟨S64, .f32⟩
  | 60 => ⟨S64x1, .f32⟩
  | 61 => ⟨S64x10, .f32⟩
  | 62 => ⟨S64x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_c : Ref sig .tc := ⟨.hbm, 25, rfl⟩
abbrev main_v5 : Ref sig .tc := ⟨.hbm, 26, rfl⟩
abbrev main_v6 : Ref sig .tc := ⟨.hbm, 27, rfl⟩
abbrev main_c_0 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_c_1 : Ref sig .tc := ⟨.hbm, 34, rfl⟩
abbrev main_v12 : Ref sig .tc := ⟨.hbm, 35, rfl⟩
abbrev main_v13 : Ref sig .tc := ⟨.hbm, 36, rfl⟩
abbrev main_c_2 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_call0_cst : Ref sig .tc := ⟨.hbm, 48, rfl⟩
abbrev main_call0_v0 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_call1_cst : Ref sig .tc := ⟨.hbm, 55, rfl⟩
abbrev main_call1_v0 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_3 : Ref sig .tc := ⟨.hbm, 62, rfl⟩
abbrev main_v34 : Ref sig .tc := ⟨.hbm, 63, rfl⟩
abbrev main_c_4 : Ref sig .tc := ⟨.hbm, 64, rfl⟩
abbrev main_v35 : Ref sig .tc := ⟨.hbm, 65, rfl⟩
abbrev main_v36 : Ref sig .tc := ⟨.hbm, 66, rfl⟩
abbrev main_c_5 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_c_6 : Ref sig .tc := ⟨.hbm, 73, rfl⟩
abbrev main_v42 : Ref sig .tc := ⟨.hbm, 74, rfl⟩
abbrev main_v43 : Ref sig .tc := ⟨.hbm, 75, rfl⟩
abbrev main_c_7 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_call2_cst : Ref sig .tc := ⟨.hbm, 87, rfl⟩
abbrev main_call2_v0 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_call3_cst : Ref sig .tc := ⟨.hbm, 94, rfl⟩
abbrev main_call3_v0 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_8 : Ref sig .tc := ⟨.hbm, 101, rfl⟩
abbrev main_v64 : Ref sig .tc := ⟨.hbm, 102, rfl⟩
abbrev main_c_9 : Ref sig .tc := ⟨.hbm, 103, rfl⟩
abbrev main_v65 : Ref sig .tc := ⟨.hbm, 104, rfl⟩
abbrev main_v66 : Ref sig .tc := ⟨.hbm, 105, rfl⟩
abbrev main_c_10 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_c_11 : Ref sig .tc := ⟨.hbm, 112, rfl⟩
abbrev main_v72 : Ref sig .tc := ⟨.hbm, 113, rfl⟩
abbrev main_v73 : Ref sig .tc := ⟨.hbm, 114, rfl⟩
abbrev main_c_12 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_call4_cst : Ref sig .tc := ⟨.hbm, 126, rfl⟩
abbrev main_call4_v0 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_call5_cst : Ref sig .tc := ⟨.hbm, 133, rfl⟩
abbrev main_call5_v0 : Ref sig .tc := ⟨.hbm, 134, rfl⟩
abbrev main_v89 : Ref sig .tc := ⟨.hbm, 135, rfl⟩
abbrev main_cst_13 : Ref sig .tc := ⟨.hbm, 136, rfl⟩
abbrev main_v90 : Ref sig .tc := ⟨.hbm, 137, rfl⟩
abbrev main_c_14 : Ref sig .tc := ⟨.hbm, 138, rfl⟩
abbrev main_v91 : Ref sig .tc := ⟨.hbm, 139, rfl⟩
abbrev main_v92 : Ref sig .tc := ⟨.hbm, 140, rfl⟩
abbrev main_c_15 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_cst_16 : Ref sig .tc := ⟨.hbm, 147, rfl⟩
abbrev main_v98 : Ref sig .tc := ⟨.hbm, 148, rfl⟩
abbrev main_c_17 : Ref sig .tc := ⟨.hbm, 149, rfl⟩
abbrev main_v99 : Ref sig .tc := ⟨.hbm, 150, rfl⟩
abbrev main_v100 : Ref sig .tc := ⟨.hbm, 151, rfl⟩
abbrev main_c_18 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_cst_19 : Ref sig .tc := ⟨.hbm, 157, rfl⟩
abbrev main_v105 : Ref sig .tc := ⟨.hbm, 158, rfl⟩
abbrev main_v106 : Ref sig .tc := ⟨.hbm, 159, rfl⟩
abbrev main_cst_20 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_call6_cst : Ref sig .tc := ⟨.hbm, 170, rfl⟩
abbrev main_call6_v0 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_cst_21 : Ref sig .tc := ⟨.hbm, 177, rfl⟩
abbrev main_v121 : Ref sig .tc := ⟨.hbm, 178, rfl⟩
abbrev main_cst_22 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_cst_23 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000x128 : S_.BroadcastsInDim S50000x128 (![] : Fin 0 → Fin S50000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  reducesTo_S64x10_S64_d1 : S64x10.ReducesTo [1] S64
  h_S_ : 0 < S_.numel
  bcast_S64x1_S64x10_0_1 : S64x1.BroadcastsInDim S64x10 (![0, 1] : Fin 2 → Fin S64x10.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x128_S64x128_1_0_0_1_n_n_wf : DotDims.WF S64x128 S128x128 S64x128 [1] [0] [0] [1] [] []
  dot_S64x128_S128x10_S64x10_1_0_0_1_n_n_wf : DotDims.WF S64x128 S128x10 S64x10 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.KFoldArgs.lean ====
/-
  The argument arrays at the boundaries of the run: no host operation and no call writes an
  argument array, so at every boundary between the host stretches and the three calls it holds
  what it held at launch. One lemma per boundary and argument array, for the boundaries at
  which the array is read.
-/
import proofs.«426931_j47957604827354_3_alg».proof.Proof.Gen.KernelIdeal.Frame
import Idealize.ShloMosaic.Lib.StableHlo.Run
import Idealize.ShloMosaic.PureOps.Ideal

set_option maxRecDepth 16384

noncomputable section

namespace Cert.KernelIdeal.GinFoldArgs

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

theorem W1_arg2 (c : Dev nD) : W1 m ρ c (Proc.devRef .tc main_arg2) = m ((c.tc : Thread nD τ).loc main_arg2) := by
  dsimp only [W1, hostOps0]
  after_results_simp

theorem W1_arg3 (c : Dev nD) : W1 m ρ c (Proc.devRef .tc main_arg3) = m ((c.tc : Thread nD τ).loc main_arg3) := by
  dsimp only [W1, hostOps0]
  after_results_simp

theorem W1_arg4 (c : Dev nD) : W1 m ρ c (Proc.devRef .tc main_arg4) = m ((c.tc : Thread nD τ).loc main_arg4) := by
  dsimp only [W1, hostOps0]
  after_results_simp

theorem W1_arg5 (c : Dev nD) : W1 m ρ c (Proc.devRef .tc main_arg5) = m ((c.tc : Thread nD τ).loc main_arg5) := by
  dsimp only [W1, hostOps0]
  after_results_simp

theorem W1_arg6 (c : Dev nD) : W1 m ρ c (Proc.devRef .tc main_arg6) = m ((c.tc : Thread nD τ).loc main_arg6) := by
  dsimp only [W1, hostOps0]
  after_results_simp

theorem W1_arg7 (c : Dev nD) : W1 m ρ c (Proc.devRef .tc main_arg7) = m ((c.tc : Thread nD τ).loc main_arg7) := by
  dsimp only [W1, hostOps0]
  after_results_simp

theorem W1_arg8 (c : Dev nD) : W1 m ρ c (Proc.devRef .tc main_arg8) = m ((c.tc : Thread nD τ).loc main_arg8) := by
  dsimp only [W1, hostOps0]
  after_results_simp

theorem W1_arg9 (c : Dev nD) : W1 m ρ c (Proc.devRef .tc main_arg9) = m ((c.tc : Thread nD τ).loc main_arg9) := by
  dsimp only [W1, hostOps0]
  after_results_simp

theorem W1_arg10 (c : Dev nD) : W1 m ρ c (Proc.devRef .tc main_arg10) = m ((c.tc : Thread nD τ).loc main_arg10) := by
  dsimp only [W1, hostOps0]
  after_results_simp

theorem W1_arg11 (c : Dev nD) : W1 m ρ c (Proc.devRef .tc main_arg11) = m ((c.tc : Thread nD τ).loc main_arg11) := by
  dsimp only [W1, hostOps0]
  after_results_simp

theorem W1_arg12 (c : Dev nD) : W1 m ρ c (Proc.devRef .tc main_arg12) = m ((c.tc : Thread nD τ).loc main_arg12) := by
  dsimp only [W1, hostOps0]
  after_results_simp

theorem W1_arg13 (c : Dev nD) : W1 m ρ c (Proc.devRef .tc main_arg13) = m ((c.tc : Thread nD τ).loc main_arg13) := by
  dsimp only [W1, hostOps0]
  after_results_simp

theorem W1_arg14 (c : Dev nD) : W1 m ρ c (Proc.devRef .tc main_arg14) = m ((c.tc : Thread nD τ).loc main_arg14) := by
  dsimp only [W1, hostOps0]
  after_results_simp

theorem W1_arg15 (c : Dev nD) : W1 m ρ c (Proc.devRef .tc main_arg15) = m ((c.tc : Thread nD τ).loc main_arg15) := by
  dsimp only [W1, hostOps0]
  after_results_simp

theorem W1_arg16 (c : Dev nD) : W1 m ρ c (Proc.devRef .tc main_arg16) = m ((c.tc : Thread nD τ).loc main_arg16) := by
  dsimp only [W1, hostOps0]
  after_results_simp

theorem W1_arg17 (c : Dev nD) : W1 m ρ c (Proc.devRef .tc main_arg17) = m ((c.tc : Thread nD τ).loc main_arg17) := by
  dsimp only [W1, hostOps0]
  after_results_simp

theorem W1_arg18 (c : Dev nD) : W1 m ρ c (Proc.devRef .tc main_arg18) = m ((c.tc : Thread nD τ).loc main_arg18) := by
  dsimp only [W1, hostOps0]
  after_results_simp

theorem W2_arg2 (c : Dev nD) : W2 m ρ c (Proc.devRef .tc main_arg2) = m ((c.tc : Thread nD τ).loc main_arg2) :=
  (W2_of_ne m ρ c main_arg2 (by decide)).trans (W1_arg2 m ρ c)

theorem W2_arg7 (c : Dev nD) : W2 m ρ c (Proc.devRef .tc main_arg7) = m ((c.tc : Thread nD τ).loc main_arg7) :=
  (W2_of_ne m ρ c main_arg7 (by decide)).trans (W1_arg7 m ρ c)

theorem W2_arg8 (c : Dev nD) : W2 m ρ c (Proc.devRef .tc main_arg8) = m ((c.tc : Thread nD τ).loc main_arg8) :=
  (W2_of_ne m ρ c main_arg8 (by decide)).trans (W1_arg8 m ρ c)

theorem W2_arg9 (c : Dev nD) : W2 m ρ c (Proc.devRef .tc main_arg9) = m ((c.tc : Thread nD τ).loc main_arg9) :=
  (W2_of_ne m ρ c main_arg9 (by decide)).trans (W1_arg9 m ρ c)

theorem W2_arg10 (c : Dev nD) : W2 m ρ c (Proc.devRef .tc main_arg10) = m ((c.tc : Thread nD τ).loc main_arg10) :=
  (W2_of_ne m ρ c main_arg10 (by decide)).trans (W1_arg10 m ρ c)

theorem W2_arg11 (c : Dev nD) : W2 m ρ c (Proc.devRef .tc main_arg11) = m ((c.tc : Thread nD τ).loc main_arg11) :=
  (W2_of_ne m ρ c main_arg11 (by decide)).trans (W1_arg11 m ρ c)

theorem W2_arg12 (c : Dev nD) : W2 m ρ c (Proc.devRef .tc main_arg12) = m ((c.tc : Thread nD τ).loc main_arg12) :=
  (W2_of_ne m ρ c main_arg12 (by decide)).trans (W1_arg12 m ρ c)

theorem W2_arg13 (c : Dev nD) : W2 m ρ c (Proc.devRef .tc main_arg13) = m ((c.tc : Thread nD τ).loc main_arg13) :=
  (W2_of_ne m ρ c main_arg13 (by decide)).trans (W1_arg13 m ρ c)

theorem W2_arg14 (c : Dev nD) : W2 m ρ c (Proc.devRef .tc main_arg14) = m ((c.tc : Thread nD τ).loc main_arg14) :=
  (W2_of_ne m ρ c main_arg14 (by decide)).trans (W1_arg14 m ρ c)

theorem W2_arg15 (c : Dev nD) : W2 m ρ c (Proc.devRef .tc main_arg15) = m ((c.tc : Thread nD τ).loc main_arg15) :=
  (W2_of_ne m ρ c main_arg15 (by decide)).trans (W1_arg15 m ρ c)

theorem W2_arg16 (c : Dev nD) : W2 m ρ c (Proc.devRef .tc main_arg16) = m ((c.tc : Thread nD τ).loc main_arg16) :=
  (W2_of_ne m ρ c main_arg16 (by decide)).trans (W1_arg16 m ρ c)

theorem W2_arg17 (c : Dev nD) : W2 m ρ c (Proc.devRef .tc main_arg17) = m ((c.tc : Thread nD τ).loc main_arg17) :=
  (W2_of_ne m ρ c main_arg17 (by decide)).trans (W1_arg17 m ρ c)

theorem W2_arg18 (c : Dev nD) : W2 m ρ c (Proc.devRef .tc main_arg18) = m ((c.tc : Thread nD τ).loc main_arg18) :=
  (W2_of_ne m ρ c main_arg18 (by decide)).trans (W1_arg18 m ρ c)

theorem W3_arg2 (c : Dev nD) : W3 m ρ c (Proc.devRef .tc main_arg2) = m ((c.tc : Thread nD τ).loc main_arg2) := by
  dsimp only [W3, hostOps1]
  after_results_simp
  exact W2_arg2 m ρ c

theorem W3_arg7 (c : Dev nD) : W3 m ρ c (Proc.devRef .tc main_arg7) = m ((c.tc : Thread nD τ).loc main_arg7) := by
  dsimp only [W3, hostOps1]
  after_results_simp
  exact W2_arg7 m ρ c

theorem W3_arg8 (c : Dev nD) : W3 m ρ c (Proc.devRef .tc main_arg8) = m ((c.tc : Thread nD τ).loc main_arg8) := by
  dsimp only [W3, hostOps1]
  after_results_simp
  exact W2_arg8 m ρ c

theorem W3_arg9 (c : Dev nD) : W3 m ρ c (Proc.devRef .tc main_arg9) = m ((c.tc : Thread nD τ).loc main_arg9) := by
  dsimp only [W3, hostOps1]
  after_results_simp
  exact W2_arg9 m ρ c

theorem W3_arg10 (c : Dev nD) : W3 m ρ c (Proc.devRef .tc main_arg10) = m ((c.tc : Thread nD τ).loc main_arg10) := by
  dsimp only [W3, hostOps1]
  after_results_simp
  exact W2_arg10 m ρ c

theorem W3_arg11 (c : Dev nD) : W3 m ρ c (Proc.devRef .tc main_arg11) = m ((c.tc : Thread nD τ).loc main_arg11) := by
  dsimp only [W3, hostOps1]
  after_results_simp
  exact W2_arg11 m ρ c

theorem W3_arg12 (c : Dev nD) : W3 m ρ c (Proc.devRef .tc main_arg12) = m ((c.tc : Thread nD τ).loc main_arg12) := by
  dsimp only [W3, hostOps1]
  after_results_simp
  exact W2_arg12 m ρ c

theorem W3_arg13 (c : Dev nD) : W3 m ρ c (Proc.devRef .tc main_arg13) = m ((c.tc : Thread nD τ).loc main_arg13) := by
  dsimp only [W3, hostOps1]
  after_results_simp
  exact W2_arg13 m ρ c

theorem W3_arg14 (c : Dev nD) : W3 m ρ c (Proc.devRef .tc main_arg14) = m ((c.tc : Thread nD τ).loc main_arg14) := by
  dsimp only [W3, hostOps1]
  after_results_simp
  exact W2_arg14 m ρ c

theorem W3_arg15 (c : Dev nD) : W3 m ρ c (Proc.devRef .tc main_arg15) = m ((c.tc : Thread nD τ).loc main_arg15) := by
  dsimp only [W3, hostOps1]
  after_results_simp
  exact W2_arg15 m ρ c

theorem W3_arg16 (c : Dev nD) : W3 m ρ c (Proc.devRef .tc main_arg16) = m ((c.tc : Thread nD τ).loc main_arg16) := by
  dsimp only [W3, hostOps1]
  after_results_simp
  exact W2_arg16 m ρ c

theorem W3_arg17 (c : Dev nD) : W3 m ρ c (Proc.devRef .tc main_arg17) = m ((c.tc : Thread nD τ).loc main_arg17) := by
  dsimp only [W3, hostOps1]
  after_results_simp
  exact W2_arg17 m ρ c

theorem W3_arg18 (c : Dev nD) : W3 m ρ c (Proc.devRef .tc main_arg18) = m ((c.tc : Thread nD τ).loc main_arg18) := by
  dsimp only [W3, hostOps1]
  after_results_simp
  exact W2_arg18 m ρ c

theorem W4_arg2 (c : Dev nD) : W4 m ρ c (Proc.devRef .tc main_arg2) = m ((c.tc : Thread nD τ).loc main_arg2) :=
  (W4_of_ne m ρ c main_arg2 (by decide)).trans (W3_arg2 m ρ c)

theorem W4_arg11 (c : Dev nD) : W4 m ρ c (Proc.devRef .tc main_arg11) = m ((c.tc : Thread nD τ).loc main_arg11) :=
  (W4_of_ne m ρ c main_arg11 (by decide)).trans (W3_arg11 m ρ c)

theorem W4_arg12 (c : Dev nD) : W4 m ρ c (Proc.devRef .tc main_arg12) = m ((c.tc : Thread nD τ).loc main_arg12) :=
  (W4_of_ne m ρ c main_arg12 (by decide)).trans (W3_arg12 m ρ c)

theorem W4_arg13 (c : Dev nD) : W4 m ρ c (Proc.devRef .tc main_arg13) = m ((c.tc : Thread nD τ).loc main_arg13) :=
  (W4_of_ne m ρ c main_arg13 (by decide)).trans (W3_arg13 m ρ c)

theorem W4_arg14 (c : Dev nD) : W4 m ρ c (Proc.devRef .tc main_arg14) = m ((c.tc : Thread nD τ).loc main_arg14) :=
  (W4_of_ne m ρ c main_arg14 (by decide)).trans (W3_arg14 m ρ c)

theorem W4_arg15 (c : Dev nD) : W4 m ρ c (Proc.devRef .tc main_arg15) = m ((c.tc : Thread nD τ).loc main_arg15) :=
  (W4_of_ne m ρ c main_arg15 (by decide)).trans (W3_arg15 m ρ c)

theorem W4_arg16 (c : Dev nD) : W4 m ρ c (Proc.devRef .tc main_arg16) = m ((c.tc : Thread nD τ).loc main_arg16) :=
  (W4_of_ne m ρ c main_arg16 (by decide)).trans (W3_arg16 m ρ c)

theorem W4_arg17 (c : Dev nD) : W4 m ρ c (Proc.devRef .tc main_arg17) = m ((c.tc : Thread nD τ).loc main_arg17) :=
  (W4_of_ne m ρ c main_arg17 (by decide)).trans (W3_arg17 m ρ c)

theorem W4_arg18 (c : Dev nD) : W4 m ρ c (Proc.devRef .tc main_arg18) = m ((c.tc : Thread nD τ).loc main_arg18) :=
  (W4_of_ne m ρ c main_arg18 (by decide)).trans (W3_arg18 m ρ c)

theorem W5_arg2 (c : Dev nD) : W5 m ρ c (Proc.devRef .tc main_arg2) = m ((c.tc : Thread nD τ).loc main_arg2) := by
  dsimp only [W5, hostOps2]
  after_results_simp
  exact W4_arg2 m ρ c

theorem W5_arg11 (c : Dev nD) : W5 m ρ c (Proc.devRef .tc main_arg11) = m ((c.tc : Thread nD τ).loc main_arg11) := by
  dsimp only [W5, hostOps2]
  after_results_simp
  exact W4_arg11 m ρ c

theorem W5_arg12 (c : Dev nD) : W5 m ρ c (Proc.devRef .tc main_arg12) = m ((c.tc : Thread nD τ).loc main_arg12) := by
  dsimp only [W5, hostOps2]
  after_results_simp
  exact W4_arg12 m ρ c

theorem W5_arg13 (c : Dev nD) : W5 m ρ c (Proc.devRef .tc main_arg13) = m ((c.tc : Thread nD τ).loc main_arg13) := by
  dsimp only [W5, hostOps2]
  after_results_simp
  exact W4_arg13 m ρ c

theorem W5_arg14 (c : Dev nD) : W5 m ρ c (Proc.devRef .tc main_arg14) = m ((c.tc : Thread nD τ).loc main_arg14) := by
  dsimp only [W5, hostOps2]
  after_results_simp
  exact W4_arg14 m ρ c

theorem W5_arg15 (c : Dev nD) : W5 m ρ c (Proc.devRef .tc main_arg15) = m ((c.tc : Thread nD τ).loc main_arg15) := by
  dsimp only [W5, hostOps2]
  after_results_simp
  exact W4_arg15 m ρ c

theorem W5_arg16 (c : Dev nD) : W5 m ρ c (Proc.devRef .tc main_arg16) = m ((c.tc : Thread nD τ).loc main_arg16) := by
  dsimp only [W5, hostOps2]
  after_results_simp
  exact W4_arg16 m ρ c

theorem W5_arg17 (c : Dev nD) : W5 m ρ c (Proc.devRef .tc main_arg17) = m ((c.tc : Thread nD τ).loc main_arg17) := by
  dsimp only [W5, hostOps2]
  after_results_simp
  exact W4_arg17 m ρ c

theorem W5_arg18 (c : Dev nD) : W5 m ρ c (Proc.devRef .tc main_arg18) = m ((c.tc : Thread nD τ).loc main_arg18) := by
  dsimp only [W5, hostOps2]
  after_results_simp
  exact W4_arg18 m ρ c

theorem W6_arg2 (c : Dev nD) : W6 m ρ c (Proc.devRef .tc main_arg2) = m ((c.tc : Thread nD τ).loc main_arg2) :=
  (W6_of_ne m ρ c main_arg2 (by decide)).trans (W5_arg2 m ρ c)

theorem W6_arg15 (c : Dev nD) : W6 m ρ c (Proc.devRef .tc main_arg15) = m ((c.tc : Thread nD τ).loc main_arg15) :=
  (W6_of_ne m ρ c main_arg15 (by decide)).trans (W5_arg15 m ρ c)

theorem W6_arg16 (c : Dev nD) : W6 m ρ c (Proc.devRef .tc main_arg16) = m ((c.tc : Thread nD τ).loc main_arg16) :=
  (W6_of_ne m ρ c main_arg16 (by decide)).trans (W5_arg16 m ρ c)

theorem W6_arg17 (c : Dev nD) : W6 m ρ c (Proc.devRef .tc main_arg17) = m ((c.tc : Thread nD τ).loc main_arg17) :=
  (W6_of_ne m ρ c main_arg17 (by decide)).trans (W5_arg17 m ρ c)

theorem W6_arg18 (c : Dev nD) : W6 m ρ c (Proc.devRef .tc main_arg18) = m ((c.tc : Thread nD τ).loc main_arg18) :=
  (W6_of_ne m ρ c main_arg18 (by decide)).trans (W5_arg18 m ρ c)

end Cert.KernelIdeal.GinFoldArgs

end
-- ==== Proof.KFold.lean ====
/-
  The three-call program's buffers, read back through the run.

  Between the calls the host computes, for each layer, the aggregated features: every node's
  row plus the rows of the nodes its incoming edges name (a gather of the source rows, added
  by a scatter onto the destination rows, starting from the features themselves). The edge
  list's two rows are cut out once and read again by the later layers; a negative node id is
  wrapped around by the number of nodes, as array indexing does. Before the third call the
  host also builds the indicator matrix "node n has graph id g" as a zero-one matrix. This
  module names those host functions and says what each buffer holds at each boundary of the
  run, as those functions of the argument arrays and of what the calls left.
-/
import proofs.«426931_j47957604827354_3_alg».proof.Proof.Gen.KernelIdeal.Frame
import proofs.«426931_j47957604827354_3_alg».proof.Proof.KFoldArgs
import Idealize.ShloMosaic.Lib.StableHlo.Run
import Idealize.ShloMosaic.PureOps.Ideal

set_option maxRecDepth 16384

noncomputable section

namespace Cert.KernelIdeal.GinFold

open Idealize.ShloMosaic Idealize.ShloMosaic.TcCoe Idealize.SL.Sem Idealize.ShloMosaic.StableHlo
open Cert.KernelIdeal Cert.KernelIdeal.Gen
open Cert.KernelIdeal.GinFoldArgs

/-! ## The host functions -/

/-- The source node of every edge: the edge list's first row. -/
def srcOf (ei : IVec S2x600000 32) : IVec S600000 32 :=
  shapeCast S600000 (extractStridedSlice S1x600000 ![0, 0] ei slices_S2x600000_S1x600000_0_0) shapeCasts_S1x600000_S600000
/-- The destination node of every edge: the edge list's second row. -/
def dstOf (ei : IVec S2x600000 32) : IVec S600000 32 :=
  shapeCast S600000 (extractStridedSlice S1x600000 ![1, 0] ei slices_S2x600000_S1x600000_1_0) shapeCasts_S1x600000_S600000
/-- A node id as an index column: a negative id wrapped around by the number of nodes. -/
def wrapNode (v : IVec S600000 32) : IVec S600000x1 32 :=
  broadcastInDim S600000x1 ![0] bcast_S600000_S600000x1_0
    (select (cmpi .slt v (broadcastInDim S600000 ![] bcast_S_S600000 (constantI S_ 32 0#32)))
      (addi v (broadcastInDim S600000 ![] bcast_S_S600000 (constantI S_ 32 50000#32))) v)
/-- The aggregated features: each row plus the rows gathered at the sources, added at the destinations. -/
def aggK (h : FVec Ideal S50000x128 .f32) (src dst : IVec S600000 32) : FVec Ideal S50000x128 .f32 :=
  Host.scatterAdd scatter_S50000x128_S600000x1_S600000x128_1_0_0_1 h (wrapNode dst)
    (Host.gather gather_S50000x128_S600000x1_S600000x128_1_0_n_n_0_1_1128 h (wrapNode src))
/-- The indicator matrix: entry (n, g) is one when node n's graph id is the number g, else zero. -/
def onehotK (batch : IVec S50000 32) : FVec Ideal S50000x64 .bf16 :=
  uitofp (F := Ideal) .bf16
    (cmpi .eq (broadcastInDim S50000x64 ![0, 1] bcast_S50000x1_S50000x64_0_1 (shapeCast S50000x1 batch shapeCasts_S50000_S50000x1))
      (broadcastInDim S50000x64 ![0, 1] bcast_S1x64_S50000x64_0_1 (iotaInDim S1x64 32 1)))

/-! ## The classifier head's host functions -/

/-- A graph id as an index column: a negative id wrapped around by the number of graphs. -/
def wrapGraph (batch : IVec S50000 32) : IVec S50000x1 32 :=
  broadcastInDim S50000x1 ![0] bcast_S50000_S50000x1_0
    (select (cmpi .slt batch (broadcastInDim S50000 ![] bcast_S_S50000 (constantI S_ 32 0#32)))
      (addi batch (broadcastInDim S50000 ![] bcast_S_S50000 (constantI S_ 32 64#32))) batch)
/-- The number of nodes of each graph, and at least one: a one added per node at its graph's entry. -/
def countsK (batch : IVec S50000 32) : FVec Ideal S64 .f32 :=
  maximumf
    (Host.scatterAdd scatter_S64_S50000x1_S50000_n_0_0_1
      (broadcastInDim S64 ![] bcast_S_S64 (constant (F := Ideal) S_ .f32 0x00000000#32)) (wrapGraph batch)
      (broadcastInDim S50000 ![] bcast_S_S50000 (constant (F := Ideal) S_ .f32 0x3F800000#32)))
    (broadcastInDim S64 ![] bcast_S_S64 (constant (F := Ideal) S_ .f32 0x3F800000#32))
/-- The counts as a column repeated along the features, the way this program spells it. -/
def countsColK (batch : IVec S50000 32) : FVec Ideal S64x128 .f32 :=
  broadcastInDim S64x128 ![0, 1] bcast_S64x1_S64x128_0_1 (shapeCast S64x1 (countsK batch) shapeCasts_S64_S64x1)
/-- The hidden layer before its rectifier: the per-graph means through the first dense layer. -/
def preactK (sums cnt : FVec Ideal S64x128 .f32) (wf1 : FVec Ideal S128x128 .f32) (bf1 : FVec Ideal S128 .f32) :
    FVec Ideal S64x128 .f32 :=
  addf (Host.dotGeneral (F := Ideal) dot_S64x128_S128x128_S64x128_1_0_0_1_n_n none (Host.divf sums cnt) wf1)
    (broadcastInDim S64x128 ![0, 1] bcast_S1x128_S64x128_0_1 (broadcastInDim S1x128 ![1] bcast_S128_S1x128_1 bf1))
/-- The rectifier on the hidden layer. -/
def reluK (x : FVec Ideal S64x128 .f32) : FVec Ideal S64x128 .f32 :=
  maximumf x (broadcastInDim S64x128 ![] bcast_S_S64x128 (constant (F := Ideal) S_ .f32 0x00000000#32))
/-- The class scores: the hidden layer through the second dense layer. -/
def logitsK (hid : FVec Ideal S64x128 .f32) (wf2 : FVec Ideal S128x10 .f32) (bf2 : FVec Ideal S10 .f32) : FVec Ideal S64x10 .f32 :=
  addf (Host.dotGeneral (F := Ideal) dot_S64x128_S128x10_S64x10_1_0_0_1_n_n none hid wf2)
    (broadcastInDim S64x10 ![0, 1] bcast_S1x10_S64x10_0_1 (broadcastInDim S1x10 ![1] bcast_S10_S1x10_1 bf2))
/-- The softmax along the classes: the exponentials of the scores less their row maximum, over their row sum. -/
def softmaxK (z : FVec Ideal S64x10 .f32) : FVec Ideal S64x10 .f32 :=
  Host.divf
    (Host.exp (subf z (broadcastInDim S64x10 ![0, 1] bcast_S64x1_S64x10_0_1 (broadcastInDim S64x1 ![0] bcast_S64_S64x1_0
      (maximumf (broadcastInDim S64 ![] bcast_S_S64 (constant (F := Ideal) S_ .f32 0xFF800000#32))
        (Host.reduce FloatOps.maximumf z (constant (F := Ideal) S_ .f32 0xFF800000#32) reducesTo_S64x10_S64_d1 h_S_))))))
    (broadcastInDim S64x10 ![0, 1] bcast_S64x1_S64x10_0_1 (broadcastInDim S64x1 ![0] bcast_S64_S64x1_0
      (Host.reduceAdd
        (Host.exp (subf z (broadcastInDim S64x10 ![0, 1] bcast_S64x1_S64x10_0_1 (broadcastInDim S64x1 ![0] bcast_S64_S64x1_0
          (maximumf (broadcastInDim S64 ![] bcast_S_S64 (constant (F := Ideal) S_ .f32 0xFF800000#32))
            (Host.reduce FloatOps.maximumf z (constant (F := Ideal) S_ .f32 0xFF800000#32) reducesTo_S64x10_S64_d1 h_S_))))))
        (constant (F := Ideal) S_ .f32 0x00000000#32) reducesTo_S64x10_S64_d1 h_S_)))
/-- The sum of the third call's ten output tiles. -/
def sumTilesK (P : FVec Ideal S10x64x128 .f32) : FVec Ideal S64x128 .f32 :=
  Host.reduceAdd (F := Ideal) P (constant (F := Ideal) S_ .f32 0x00000000#32) reducesTo_S10x64x128_S64x128_d0 h_S_

variable (m : (ℓ : Loc nD τ sig) → Buf (Elt Ideal) ℓ) (ρ : Dev nD → PrngReg)

/-! ## Before and after the first call -/

theorem W1_src (c : Dev nD) :
    (W1 m ρ c (Proc.devRef .tc main_v1) : IVec S600000 32) = srcOf (m ((c.tc : Thread nD τ).loc main_arg1)) := by
  dsimp only [W1, hostOps0]
  after_results_simp
  rfl
theorem W1_dst (c : Dev nD) :
    (W1 m ρ c (Proc.devRef .tc main_v3) : IVec S600000 32) = dstOf (m ((c.tc : Thread nD τ).loc main_arg1)) := by
  dsimp only [W1, hostOps0]
  after_results_simp
  rfl
/-- The first call's input: the aggregated argument features. -/
theorem W1_agg (c : Dev nD) :
    (W1 m ρ c (Proc.devRef .tc main_v17) : FVec Ideal S50000x128 .f32)
      = aggK (m ((c.tc : Thread nD τ).loc main_arg0)) (srcOf (m ((c.tc : Thread nD τ).loc main_arg1)))
          (dstOf (m ((c.tc : Thread nD τ).loc main_arg1))) := by
  dsimp only [W1, hostOps0]
  after_results_simp
  rfl

/-! ## The edge rows at the later boundaries -/

theorem W2_src (c : Dev nD) : (W2 m ρ c (Proc.devRef .tc main_v1) : IVec S600000 32) = srcOf (m ((c.tc : Thread nD τ).loc main_arg1)) :=
  (W2_of_ne m ρ c main_v1 (by decide)).trans (W1_src m ρ c)
theorem W2_dst (c : Dev nD) : (W2 m ρ c (Proc.devRef .tc main_v3) : IVec S600000 32) = dstOf (m ((c.tc : Thread nD τ).loc main_arg1)) :=
  (W2_of_ne m ρ c main_v3 (by decide)).trans (W1_dst m ρ c)
theorem W3_src (c : Dev nD) : (W3 m ρ c (Proc.devRef .tc main_v1) : IVec S600000 32) = srcOf (m ((c.tc : Thread nD τ).loc main_arg1)) := by
  dsimp only [W3, hostOps1]
  after_results_simp
  exact W2_src m ρ c
theorem W3_dst (c : Dev nD) : (W3 m ρ c (Proc.devRef .tc main_v3) : IVec S600000 32) = dstOf (m ((c.tc : Thread nD τ).loc main_arg1)) := by
  dsimp only [W3, hostOps1]
  after_results_simp
  exact W2_dst m ρ c
theorem W4_src (c : Dev nD) : (W4 m ρ c (Proc.devRef .tc main_v1) : IVec S600000 32) = srcOf (m ((c.tc : Thread nD τ).loc main_arg1)) :=
  (W4_of_ne m ρ c main_v1 (by decide)).trans (W3_src m ρ c)
theorem W4_dst (c : Dev nD) : (W4 m ρ c (Proc.devRef .tc main_v3) : IVec S600000 32) = dstOf (m ((c.tc : Thread nD τ).loc main_arg1)) :=
  (W4_of_ne m ρ c main_v3 (by decide)).trans (W3_dst m ρ c)

/-! ## What the calls read and leave -/

/-- The first call's output array is what its write-backs leave. -/
theorem W2_out (c : Dev nD) :
    W2 m ρ c (Proc.devRef .tc main_v18) = (dat0 (F := Ideal) (V1 m ρ) c).arrAt 5 cfg0.N := W2_arr m ρ c 5
/-- The second call's input: the aggregated output of the first. -/
theorem W3_agg (c : Dev nD) :
    (W3 m ρ c (Proc.devRef .tc main_v32) : FVec Ideal S50000x128 .f32)
      = aggK (W2 m ρ c (Proc.devRef .tc main_v18)) (srcOf (m ((c.tc : Thread nD τ).loc main_arg1)))
          (dstOf (m ((c.tc : Thread nD τ).loc main_arg1))) := by
  dsimp only [W3, hostOps1]
  after_results_simp
  rw [W2_src m ρ c, W2_dst m ρ c]
  rfl
/-- The second call's output array is what its write-backs leave. -/
theorem W4_out (c : Dev nD) :
    W4 m ρ c (Proc.devRef .tc main_v33) = (dat1 (F := Ideal) (V3 m ρ) c).arrAt 5 cfg1.N := W4_arr m ρ c 5
/-- The third call's input: the aggregated output of the second. -/
theorem W5_agg (c : Dev nD) :
    (W5 m ρ c (Proc.devRef .tc main_v47) : FVec Ideal S50000x128 .f32)
      = aggK (W4 m ρ c (Proc.devRef .tc main_v33)) (srcOf (m ((c.tc : Thread nD τ).loc main_arg1)))
          (dstOf (m ((c.tc : Thread nD τ).loc main_arg1))) := by
  dsimp only [W5, hostOps2]
  after_results_simp
  rw [W4_src m ρ c, W4_dst m ρ c]
  rfl
/-- The third call's indicator operand. -/
theorem W5_onehot (c : Dev nD) :
    (W5 m ρ c (Proc.devRef .tc main_v53) : FVec Ideal S50000x64 .bf16) = onehotK (m ((c.tc : Thread nD τ).loc main_arg2)) := by
  dsimp only [W5, hostOps2]
  after_results_simp
  rw [W4_arg2 m ρ c]
  rfl
/-- The third call's output array is what its write-backs leave. -/
theorem W6_out (c : Dev nD) :
    W6 m ρ c (Proc.devRef .tc main_v54) = (dat2 (F := Ideal) (V5 m ρ) c).arrAt 6 cfg2.N := W6_arr m ρ c 6

/-! ## The result -/

/-- The result buffer at the end of the run, as the head's functions of the tiles' sum and the arguments. -/
theorem W9_result (c : Dev nD) :
    (W9 m ρ c (Proc.devRef .tc main_v89) : FVec Ideal S64x10 .f32)
      = softmaxK (logitsK
          (reluK (preactK (sumTilesK (W6 m ρ c (Proc.devRef .tc main_v54))) (countsColK (m ((c.tc : Thread nD τ).loc main_arg2)))
            (m ((c.tc : Thread nD τ).loc main_arg15)) (m ((c.tc : Thread nD τ).loc main_arg16))))
          (m ((c.tc : Thread nD τ).loc main_arg17)) (m ((c.tc : Thread nD τ).loc main_arg18))) := by
  dsimp only [W9, hostOps3_2]
  after_results_simp
  rw [W6_arg2 m ρ c, W6_arg15 m ρ c, W6_arg16 m ρ c, W6_arg17 m ρ c, W6_arg18 m ρ c]
  rfl

end Cert.KernelIdeal.GinFold

end
-- ==== Proof.Spec.lean ====
/-
  The mathematics both programs compute, over the extended reals.

  A node's feature row passes through two dense layers, each followed by the rectifier
  `max · 0`: `rowMlp`. The graph network applies it to every row of the aggregated
  features, three times over; the last layer's rows are then summed per graph. One program
  sums them by scattering each row onto its graph's row, the other multiplies by the
  indicator matrix of "node n belongs to graph g" tile by tile and adds the tiles.
  `pooled_tiles_eq_sum` and `indicator_sum` are the two regroupings of that one sum:
  ten tiles of five thousand consecutive rows are all fifty thousand rows, and a sum of
  indicator-weighted terms is the sum over the rows the indicator selects. Neither needs
  finiteness: only that addition on the extended reals is commutative and associative,
  and that `0 * x = 0` and `1 * x = x` for every extended real `x`.
-/
import Idealize.ShloMosaic.Lib.ValueIdx

noncomputable section

open scoped BigOperators

namespace Cert.Gin

open Idealize.ShloMosaic Idealize.ShloMosaic.ValueIdx

/-- A real matrix of extended reals, indexed by a rank-2 index. -/
abbrev Mat (a b : Nat) := (⟨2, ![a, b]⟩ : Shape).Idx → EReal
/-- A vector of extended reals, indexed by a rank-1 index. -/
abbrev Vc (a : Nat) := (⟨1, ![a]⟩ : Shape).Idx → EReal

/-- Two dense layers with the rectifier after each, on one feature row:
    `max (Σ_k max (Σ_j row j · w1[j,k] + b1[k]) 0 · w2[k,d] + b2[d]) 0`. -/
def rowMlp (row : Fin 128 → EReal) (w1 : Mat 128 128) (b1 : Vc 128) (w2 : Mat 128 128) (b2 : Vc 128)
    (d : Fin 128) : EReal :=
  max (∑ k : Fin 128, max (∑ j : Fin 128, row j * w1 (ix2 j k) + b1 (ix1 k)) 0 * w2 (ix2 k d) + b2 (ix1 d)) 0

/-- Row `r` of tile `t`, among fifty thousand rows cut into ten tiles of five thousand. -/
def tileRow (t : Fin 10) (r : Fin 5000) : Fin 50000 := ⟨5000 * t.val + r.val, by omega⟩

theorem tileRow_val (t : Fin 10) (r : Fin 5000) : (tileRow t r).val = 5000 * t.val + r.val := rfl

/-- The ten tiles of five thousand consecutive rows are exactly the fifty thousand rows. -/
def tileEquiv : Fin 10 × Fin 5000 ≃ Fin 50000 where
  toFun p := tileRow p.1 p.2
  invFun n := (⟨n.val / 5000, by omega⟩, ⟨n.val % 5000, Nat.mod_lt _ (by norm_num)⟩)
  left_inv p := by
    obtain ⟨t, r⟩ := p
    apply Prod.ext <;> apply Fin.ext <;> simp only [tileRow] <;> omega
  right_inv n := by apply Fin.ext; simp only [tileRow]; omega

/-- A sum over the tiles of sums over a tile's rows is the sum over all rows. -/
theorem pooled_tiles_eq_sum {M : Type*} [AddCommMonoid M] (f : Fin 50000 → M) :
    ∑ t : Fin 10, ∑ r : Fin 5000, f (tileRow t r) = ∑ n : Fin 50000, f n := by
  rw [← Fintype.sum_prod_type' (fun t r => f (tileRow t r))]
  exact Equiv.sum_comp tileEquiv f

/-- A sum of terms weighted by a zero-one indicator is the sum over the selected indices. -/
theorem indicator_sum {ι : Type*} [Fintype ι] (p : ι → Prop) [DecidablePred p] (f : ι → EReal) :
    ∑ n, (if p n then (1 : EReal) else 0) * f n = ∑ n ∈ Finset.univ.filter p, f n := by
  rw [Finset.sum_filter]
  refine Finset.sum_congr rfl fun n _ => ?_
  by_cases h : p n
  · rw [if_pos h, if_pos h, one_mul]
  · rw [if_neg h, if_neg h, zero_mul]

end Cert.Gin

end
-- ==== Proof.KPayload.lean ====
/-
  The three kernel bodies' arithmetic, read at one element.

  Each body holds the same two dense layers: the tile times the first weight matrix plus the
  first bias, rectified, times the second weight matrix plus the second bias, rectified (the
  narrowing of the operands' float format before each product is the identity on extended
  reals, and each product starts from a zero accumulator). Read at row r and column d that is
  `Cert.Gin.rowMlp` of row r of the tile. The third body then multiplies the transposed
  indicator tile by the result, contracting the tile's five thousand rows: entry (g, d) is the
  sum over the rows r of indicator[r, g] times the perceptron of row r at d.

  A product is read at an output element in two steps: accumulated from zero it is the sum, over
  the contraction index, of the operands' products; a contraction over one axis is indexed by
  that axis's coordinate, and the four coordinates of the two operand indices are then read off
  the product's dimension numbers (an output coordinate on a free axis, the contraction
  coordinate on the contracted one).
-/
import proofs.«426931_j47957604827354_3_alg».proof.Proof.Gen.KernelIdeal.Skeleton
import proofs.«426931_j47957604827354_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.GinPayload

open Idealize.ShloMosaic Idealize.ShloMosaic.TcCoe Idealize.ShloMosaic.ValueIdx
open Cert.KernelIdeal Cert.KernelIdeal.Gen

/-! ## A [5000,128] × [128,128] product read at (r, d) -/

/-- The left operand's row coordinate is the output's row. -/
theorem lhs_mm_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column coordinate is the contraction position. -/
theorem lhs_mm_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row coordinate is the contraction position. -/
theorem rhs_mm_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column coordinate is the output's column. -/
theorem rhs_mm_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product of a [5000,128] tile with a [128,128] matrix, accumulated from zero, at (r, d): the sum over the
    128 contraction positions k of tile[r, k] · matrix[k, d]. -/
theorem mm_apply (a : FVec Ideal S5000x128 .bf16) (w : FVec Ideal S128x128 .bf16) (r : Fin 5000) (d : Fin 128) :
    matmul dot_S5000x128_S128x128_S5000x128_1_0_0_1_n_n none a w (constant (F := Ideal) S5000x128 .f32 0x00000000#32) (ix2 r d)
      = ∑ k : Fin 128, a (ix2 r k) * w (ix2 k d) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r d) ((contrEquiv1 dot_S5000x128_S128x128_S5000x128_1_0_0_1_n_n 128 rfl rfl).symm k) = ix2 r k := funext fun ax => Fin.ext (by
    match ax with
    | ⟨0, _⟩ => exact lhs_mm_0 _ _
    | ⟨1, _⟩ => exact (lhs_mm_1 _ _).trans hk)
  have er : dot_S5000x128_S128x128_S5000x128_1_0_0_1_n_n.rhsIdx (ix2 r d) ((contrEquiv1 dot_S5000x128_S128x128_S5000x128_1_0_0_1_n_n 128 rfl rfl).symm k) = ix2 k d := funext fun ax => Fin.ext (by
    match ax with
    | ⟨0, _⟩ => exact (rhs_mm_0 _ _).trans hk
    | ⟨1, _⟩ => exact rhs_mm_1 _ _)
  rw [el, er]

/-! ## The bias row read at (r, d) -/

/-- A length-128 vector cast to one row and repeated over the 5000 rows reads, at (r, d), the vector at d. -/
theorem bias_apply (b : FVec Ideal S128 .f32) (r : Fin 5000) (d : Fin 128) :
    broadcastTo S5000x128 (shapeCast S1x128 b shapeCasts_S128_S1x128) broadcasts_S1x128_S5000x128 (ix2 r d) = b (ix1 d) :=
  (broadcastTo_1b_ab_apply _ broadcasts_S1x128_S5000x128 r d).trans (shapeCast_a_1a_apply b shapeCasts_S128_S1x128 0 d)

/-! ## The [5000,64]ᵀ × [5000,128] product read at (g, d) -/

/-- The left operand's row coordinate is the contraction position. -/
theorem lhs_pool_0 (i : S64x128.Idx) (q : dot_S5000x64_S5000x128_S64x128_0_0_1_1_n_n.contr.Idx) :
    (dot_S5000x64_S5000x128_S64x128_0_0_1_1_n_n.lhsIdx i q 0).val = (q ⟨0, by decide⟩).val :=
  dot_S5000x64_S5000x128_S64x128_0_0_1_1_n_n.lhsIdx_val_of_single rfl i q
/-- The left operand's column coordinate is the output's row. -/
theorem lhs_pool_1 (i : S64x128.Idx) (q : dot_S5000x64_S5000x128_S64x128_0_0_1_1_n_n.contr.Idx) :
    (dot_S5000x64_S5000x128_S64x128_0_0_1_1_n_n.lhsIdx i q 1).val = (i 0).val := by
  unfold DotDims.lhsIdx
  rw [dif_neg (show ¬(1 : Fin S5000x64.rank) ∈ dot_S5000x64_S5000x128_S64x128_0_0_1_1_n_n.lhsBatch by decide), dif_pos (show (1 : Fin S5000x64.rank) ∈ dot_S5000x64_S5000x128_S64x128_0_0_1_1_n_n.lhsNonContracting by decide)]
  rfl
/-- The right operand's row coordinate is the contraction position. -/
theorem rhs_pool_0 (i : S64x128.Idx) (q : dot_S5000x64_S5000x128_S64x128_0_0_1_1_n_n.contr.Idx) :
    (dot_S5000x64_S5000x128_S64x128_0_0_1_1_n_n.rhsIdx i q 0).val = (q ⟨0, by decide⟩).val :=
  dot_S5000x64_S5000x128_S64x128_0_0_1_1_n_n.rhsIdx_val_of_single rfl i q
/-- The right operand's column coordinate is the output's column. -/
theorem rhs_pool_1 (i : S64x128.Idx) (q : dot_S5000x64_S5000x128_S64x128_0_0_1_1_n_n.contr.Idx) :
    (dot_S5000x64_S5000x128_S64x128_0_0_1_1_n_n.rhsIdx i q 1).val = (i 1).val := by
  unfold DotDims.rhsIdx
  rw [dif_neg (show ¬(1 : Fin S5000x128.rank) ∈ dot_S5000x64_S5000x128_S64x128_0_0_1_1_n_n.rhsBatch by decide), dif_pos (show (1 : Fin S5000x128.rank) ∈ dot_S5000x64_S5000x128_S64x128_0_0_1_1_n_n.rhsNonContracting by decide)]
  rfl

/-- The product that contracts the five thousand rows of a [5000,64] tile against those of a [5000,128] tile,
    accumulated from zero, at (g, d): the sum over the rows k of left[k, g] · right[k, d]. -/
theorem pool_apply (a : FVec Ideal S5000x64 .bf16) (y : FVec Ideal S5000x128 .bf16) (g : Fin 64) (d : Fin 128) :
    matmul dot_S5000x64_S5000x128_S64x128_0_0_1_1_n_n none a y (constant (F := Ideal) S64x128 .f32 0x00000000#32) (ix2 g d)
      = ∑ k : Fin 5000, a (ix2 k g) * y (ix2 k d) := by
  simp only [matmul]
  rw [Ideal.matmul_constant_zero_apply, ← Equiv.sum_comp (contrEquiv1 dot_S5000x64_S5000x128_S64x128_0_0_1_1_n_n 5000 rfl rfl).symm]
  refine Finset.sum_congr rfl fun k _ => ?_
  have hk := contrEquiv1_symm_val dot_S5000x64_S5000x128_S64x128_0_0_1_1_n_n 5000 rfl rfl k
  have el : dot_S5000x64_S5000x128_S64x128_0_0_1_1_n_n.lhsIdx (ix2 g d) ((contrEquiv1 dot_S5000x64_S5000x128_S64x128_0_0_1_1_n_n 5000 rfl rfl).symm k) = ix2 k g := funext fun ax => Fin.ext (by
    match ax with
    | ⟨0, _⟩ => exact (lhs_pool_0 _ _).trans hk
    | ⟨1, _⟩ => exact lhs_pool_1 _ _)
  have er : dot_S5000x64_S5000x128_S64x128_0_0_1_1_n_n.rhsIdx (ix2 g d) ((contrEquiv1 dot_S5000x64_S5000x128_S64x128_0_0_1_1_n_n 5000 rfl rfl).symm k) = ix2 k d := funext fun ax => Fin.ext (by
    match ax with
    | ⟨0, _⟩ => exact (rhs_pool_0 _ _).trans hk
    | ⟨1, _⟩ => exact rhs_pool_1 _ _)
  rw [el, er]

/-! ## The bodies -/

/-- The rectifier's threshold, the f32 word zero, is the extended real zero. -/
theorem relu_zero : (FloatOps.ofBits (F := Ideal) .f32 0x00000000#32) = (0 : EReal) := Ideal.ofBits_zero_f32

/-- The first call's stored value at (r, d): the two-layer perceptron of row r of the tile. -/
theorem pay0_apply (x0 : Vec Ideal S5000x128 .f32) (w1 : Vec Ideal S128x128 .f32) (b1 : Vec Ideal S128 .f32)
    (w2 : Vec Ideal S128x128 .f32) (b2 : Vec Ideal S128 .f32) (r : Fin 5000) (d : Fin 128) :
    k0_pay1 (F := Ideal) x0 w1 b1 w2 b2 (ix2 r d) = Cert.Gin.rowMlp (fun j => x0 (ix2 r j)) w1 b1 w2 b2 d := by
  unfold k0_pay1 Cert.Gin.rowMlp
  rw [maximumf_apply, addf_apply, mm_apply, bias_apply, broadcast_apply, relu_zero]
  simp only [truncf_apply, maximumf_apply, addf_apply, mm_apply, bias_apply, broadcast_apply, shapeCast_self, relu_zero]

/-- The second call's stored value at (r, d): the same perceptron, at that call's operands. -/
theorem pay1_apply (x0 : Vec Ideal S5000x128 .f32) (w1 : Vec Ideal S128x128 .f32) (b1 : Vec Ideal S128 .f32)
    (w2 : Vec Ideal S128x128 .f32) (b2 : Vec Ideal S128 .f32) (r : Fin 5000) (d : Fin 128) :
    k1_pay1 (F := Ideal) x0 w1 b1 w2 b2 (ix2 r d) = Cert.Gin.rowMlp (fun j => x0 (ix2 r j)) w1 b1 w2 b2 d := by
  unfold k1_pay1 Cert.Gin.rowMlp
  rw [maximumf_apply, addf_apply, mm_apply, bias_apply, broadcast_apply, relu_zero]
  simp only [truncf_apply, maximumf_apply, addf_apply, mm_apply, bias_apply, broadcast_apply, shapeCast_self, relu_zero]

/-- The third call's stored value at (0, g, d): the indicator-weighted sum of the perceptron over the tile's rows. -/
theorem pay2_apply (x0 : Vec Ideal S5000x128 .f32) (w1 : Vec Ideal S128x128 .f32) (b1 : Vec Ideal S128 .f32)
    (w2 : Vec Ideal S128x128 .f32) (b2 : Vec Ideal S128 .f32) (oh : Vec Ideal S5000x64 .bf16) (g : Fin 64) (d : Fin 128) :
    k2_pay1 (F := Ideal) x0 w1 b1 w2 b2 oh (ix3 (0 : Fin 1) g d)
      = ∑ r : Fin 5000, oh (ix2 r g) * Cert.Gin.rowMlp (fun j => x0 (ix2 r j)) w1 b1 w2 b2 d := by
  unfold k2_pay1
  rw [shapeCast_ab_1ab_apply, pool_apply]
  refine Finset.sum_congr rfl fun k _ => ?_
  rw [shapeCast_self, truncf_apply]
  exact congrArg (oh (ix2 k g) * ·) (pay0_apply x0 w1 b1 w2 b2 k d)

end Cert.KernelIdeal.GinPayload

end
-- ==== Proof.KRegion0.lean ====
/-
  What the first pallas_call leaves in its output array, element by element.

  The call cuts the fifty thousand rows of its input into ten tiles of five thousand rows; at
  each tile the body multiplies the tile by the first weight matrix, adds the first bias,
  rectifies, multiplies by the second weight matrix, adds the second bias and rectifies again
  (the changes of float format in between are the identity on extended reals), and writes the
  tile back in place. Row n of the output therefore depends on row n of the input alone: it is
  `Cert.Gin.rowMlp` of that row.
-/
import proofs.«426931_j47957604827354_3_alg».proof.Proof.Gen.KernelIdeal.Frame
import proofs.«426931_j47957604827354_3_alg».proof.Proof.Spec
import proofs.«426931_j47957604827354_3_alg».proof.Proof.KPayload
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.GinRegion0

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

/-- The aggregated features the call reads (its first operand), as entered. -/
abbrev xarr (c : Dev nD) : S50000x128.Idx → EReal := V c (Pipeline.arrRef spec0 0)
/-- The first layer's weights. -/
abbrev w1arr (c : Dev nD) : S128x128.Idx → EReal := V c (Pipeline.arrRef spec0 1)
/-- The first layer's bias. -/
abbrev b1arr (c : Dev nD) : S128.Idx → EReal := V c (Pipeline.arrRef spec0 2)
/-- The second layer's weights. -/
abbrev w2arr (c : Dev nD) : S128x128.Idx → EReal := V c (Pipeline.arrRef spec0 3)
/-- The second layer's bias. -/
abbrev b2arr (c : Dev nD) : S128.Idx → EReal := V c (Pipeline.arrRef spec0 4)
/-- The call's output array after its last write-back. -/
abbrev outarr (c : Dev nD) : S50000x128.Idx → EReal := (Gen.dat0 (F := Ideal) V c).arrAt 5 cfg0.N

/-- The zero offsets of a whole-block rectangle of rank two, in their two spellings. -/
theorem zero2 : (![0, 0] : Fin 2 → Nat) = fun _ => 0 := funext fun a => by fin_cases a <;> rfl
/-- The zero offset of a whole-block rectangle of rank one, in its two spellings. -/
theorem zero1 : (![0] : Fin 1 → Nat) = fun _ => 0 := funext fun a => by fin_cases a <;> rfl

/-- What the body leaves in the output tile's buffer, at row `r` and column `d`: its one store covers the
    whole tile, so the buffer holds the stored value, the perceptron of row `r` of the input tile. -/
theorem tile_apply (x0 : Vec Ideal S5000x128 .f32) (w1 : Vec Ideal S128x128 .f32) (b1 : Vec Ideal S128 .f32)
    (w2 : Vec Ideal S128x128 .f32) (b2 : Vec Ideal S128 .f32) (r : Fin 5000) (d : Fin 128) :
    out0_5 (F := Ideal) x0 w1 b1 w2 b2 (ix2 r d) = Cert.Gin.rowMlp (fun j => x0 (ix2 r j)) w1 b1 w2 b2 d := by
  unfold out0_5
  rw [View.canon_unit_zero zero2]
  simp only [View.ld_unit_zero (S := S5000x128) zero2, View.ld_unit_zero (S := S128x128) zero2,
    View.ld_unit_zero (S := S128) zero1]
  exact GinPayload.pay0_apply x0 w1 b1 w2 b2 r d

/-- The output array as one function of the arrays the call reads: row `n`, column `d` is the perceptron
    of row `n` of the features. -/
def mlpArr (c : Dev nD) : S50000x128.Idx → EReal := fun i =>
  Cert.Gin.rowMlp (fun j => xarr V c (ix2 (i 0 : Fin 50000) j)) (w1arr V c) (b1arr V c) (w2arr V c) (b2arr V c)
    (i 1 : Fin 128)

theorem mlpArr_apply (c : Dev nD) (n : Fin 50000) (d : Fin 128) :
    mlpArr V c (ix2 n d)
      = Cert.Gin.rowMlp (fun j => xarr V c (ix2 n j)) (w1arr V c) (b1arr V c) (w2arr V c) (b2arr V c) d := rfl

/-- The printed index maps, decided over the ten grid points: the features' tile and the output's tile sit at
    block row `t`, block column zero; the weights and biases are whole arrays at block zero. -/
theorem index_facts : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0 :=
  (by decide +kernel : ∀ t : Fin grid0.N, _)

/-- A block of the first weight matrix's window is the whole matrix. -/
theorem blk_w1 (c : Dev nD) (t : Fin cfg0.N) : iblk0 V c 1 t = w1arr V c := by
  obtain ⟨-, -, -, -, e0, e1, -⟩ := index_facts t
  funext y
  show V c (Pipeline.arrRef spec0 1) (((cfg0.win 1).blk t).view.emb y) = V c (Pipeline.arrRef spec0 1) y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- A block of the first bias's window is the whole bias. -/
theorem blk_b1 (c : Dev nD) (t : Fin cfg0.N) : iblk0 V c 2 t = b1arr V c := by
  obtain ⟨-, -, -, -, -, -, e0, -⟩ := index_facts t
  funext y
  show V c (Pipeline.arrRef spec0 2) (((cfg0.win 2).blk t).view.emb y) = V c (Pipeline.arrRef spec0 2) y
  refine congrArg _ (funext fun a => Fin.ext ?_)
  match a with
  | ⟨0, _⟩ => show win0_2.index t (0 : Fin 1) * 128 + 1 * (y 0).val = (y 0).val; omega

/-- A block of the second weight matrix's window is the whole matrix. -/
theorem blk_w2 (c : Dev nD) (t : Fin cfg0.N) : iblk0 V c 3 t = w2arr V c := by
  obtain ⟨-, -, -, -, -, -, -, e0, e1, -⟩ := index_facts t
  funext y
  show V c (Pipeline.arrRef spec0 3) (((cfg0.win 3).blk t).view.emb y) = V c (Pipeline.arrRef spec0 3) y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- A block of the second bias's window is the whole bias. -/
theorem blk_b2 (c : Dev nD) (t : Fin cfg0.N) : iblk0 V c 4 t = b2arr V c := by
  obtain ⟨-, -, -, -, -, -, -, -, -, e0⟩ := index_facts t
  funext y
  show V c (Pipeline.arrRef spec0 4) (((cfg0.win 4).blk t).view.emb y) = V c (Pipeline.arrRef spec0 4) y
  refine congrArg _ (funext fun a => Fin.ext ?_)
  match a with
  | ⟨0, _⟩ => show win0_4.index t (0 : Fin 1) * 128 + 1 * (y 0).val = (y 0).val; omega

/-- Row `r` of the features' tile at point `t` is row `5000 t + r` of the features. -/
theorem blk_x_apply (c : Dev nD) (t : Fin cfg0.N) (r : Fin 5000) (k : Fin 128) (n : Fin 50000)
    (hn : n.val = t.val * 5000 + r.val) :
    iblk0 V c 0 t (ix2 r k) = xarr V c (ix2 n k) := by
  obtain ⟨-, -, e0, e1, -⟩ := index_facts t
  show V c (Pipeline.arrRef spec0 0) (((cfg0.win 0).blk t).view.emb (ix2 r k)) = V c (Pipeline.arrRef spec0 0) (ix2 n k)
  refine congrArg _ (funext fun a => Fin.ext ?_)
  match a with
  | ⟨0, _⟩ => show win0_0.index t (0 : Fin 2) * 5000 + 1 * r.val = n.val; omega
  | ⟨1, _⟩ => show win0_0.index t (1 : Fin 2) * 128 + 1 * k.val = k.val; omega

/-- What point `t` writes back is block `t` of `mlpArr`. -/
theorem flushed_eq (c : Dev nD) (t : Fin cfg0.N) :
    (dat0 V c).flushed 5 t = ((cfg0.win 5).blk t).view.read (Elt Ideal) (mlpArr V c) := by
  show (cfg0.win 5).cut (grid0.coords t) ((dat0 V c).after 5 t) = _
  rw [after0_5]
  obtain ⟨e0, e1, -⟩ := index_facts t
  have hN : t.val < 10 := Nat.lt_of_lt_of_eq t.isLt N_0
  funext j
  have hr : (j 0).val < 5000 := (j 0).isLt
  have hd : (j 1).val < 128 := (j 1).isLt
  have hj : (cfg0.win 5).xinj (grid0.coords t) j = ix2 (⟨(j 0).val, hr⟩ : Fin 5000) (⟨(j 1).val, hd⟩ : Fin 128) := by
    funext a
    match a with
    | ⟨0, _⟩ => rfl
    | ⟨1, _⟩ => rfl
  have hemb : ((cfg0.win 5).blk t).view.emb j
      = ix2 (⟨t.val * 5000 + (j 0).val, by omega⟩ : Fin 50000) (⟨(j 1).val, hd⟩ : Fin 128) := by
    funext a
    apply Fin.ext
    match a with
    | ⟨0, _⟩ => show win0_5.index t (0 : Fin 2) * 5000 + 1 * (j 0).val = t.val * 5000 + (j 0).val; omega
    | ⟨1, _⟩ => show win0_5.index t (1 : Fin 2) * 128 + 1 * (j 1).val = (j 1).val; omega
  show out0_5 (iblk0 V c 0 t) (iblk0 V c 1 t) (iblk0 V c 2 t) (iblk0 V c 3 t) (iblk0 V c 4 t)
      ((cfg0.win 5).xinj (grid0.coords t) j) = mlpArr V c (((cfg0.win 5).blk t).view.emb j)
  rw [hj, hemb, tile_apply, mlpArr_apply, blk_w1, blk_b1, blk_w2, blk_b2]
  congr 1
  funext k
  exact blk_x_apply V c t _ k _ rfl

/-- An index of the output array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v18).slice (win0_5.rect t)).set ↔ _
  rw [View.set_slice_whole, Rect.mem_set_unit]
  exact Iff.rfl

/-- Row `n` lies in the block of point `n / 5000`: the ten tiles cover the array. -/
theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have ht : (i 0).val / 5000 < cfg0.N := by rw [show cfg0.N = 10 from N_0]; omega
  obtain ⟨e0, e1, -⟩ := index_facts ⟨(i 0).val / 5000, ht⟩
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    rw [e1]; omega

/-- The output array after the call is `mlpArr`. -/
theorem outarr_eq (c : Dev nD) : outarr V c = mlpArr V c :=
  (dat0 V c).arrAt_eq_of_cover 5 (mlpArr V c) (fun t _ => flushed_eq V c t) covered

/-- Row `n`, column `d` of the output is the two-layer perceptron of row `n` of the input. -/
theorem region0_apply (c : Dev nD) (n : Fin 50000) (d : Fin 128) :
    outarr V c (ix2 n d)
      = Cert.Gin.rowMlp (fun j => xarr V c (ix2 n j)) (w1arr V c) (b1arr V c) (w2arr V c) (b2arr V c) d := by
  rw [outarr_eq, mlpArr_apply]

end Cert.KernelIdeal.GinRegion0

end
-- ==== Proof.KRegion1.lean ====
/-
  What the second pallas_call leaves in its output array, element by element.

  The call cuts the fifty thousand rows of its input into ten tiles of five thousand rows; at
  each tile the body multiplies the tile by the first weight matrix, adds the first bias,
  rectifies, multiplies by the second weight matrix, adds the second bias and rectifies again
  (the changes of float format in between are the identity on extended reals), and writes the
  tile back in place. Row n of the output therefore depends on row n of the input alone: it is
  `Cert.Gin.rowMlp` of that row.
-/
import proofs.«426931_j47957604827354_3_alg».proof.Proof.Gen.KernelIdeal.Frame
import proofs.«426931_j47957604827354_3_alg».proof.Proof.Spec
import proofs.«426931_j47957604827354_3_alg».proof.Proof.KPayload
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.GinRegion1

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

/-- The aggregated features the call reads (its first operand), as entered. -/
abbrev xarr (c : Dev nD) : S50000x128.Idx → EReal := V c (Pipeline.arrRef spec1 0)
/-- The first layer's weights. -/
abbrev w1arr (c : Dev nD) : S128x128.Idx → EReal := V c (Pipeline.arrRef spec1 1)
/-- The first layer's bias. -/
abbrev b1arr (c : Dev nD) : S128.Idx → EReal := V c (Pipeline.arrRef spec1 2)
/-- The second layer's weights. -/
abbrev w2arr (c : Dev nD) : S128x128.Idx → EReal := V c (Pipeline.arrRef spec1 3)
/-- The second layer's bias. -/
abbrev b2arr (c : Dev nD) : S128.Idx → EReal := V c (Pipeline.arrRef spec1 4)
/-- The call's output array after its last write-back. -/
abbrev outarr (c : Dev nD) : S50000x128.Idx → EReal := (Gen.dat1 (F := Ideal) V c).arrAt 5 cfg1.N

/-- The zero offsets of a whole-block rectangle of rank two, in their two spellings. -/
theorem zero2 : (![0, 0] : Fin 2 → Nat) = fun _ => 0 := funext fun a => by fin_cases a <;> rfl
/-- The zero offset of a whole-block rectangle of rank one, in its two spellings. -/
theorem zero1 : (![0] : Fin 1 → Nat) = fun _ => 0 := funext fun a => by fin_cases a <;> rfl

/-- What the body leaves in the output tile's buffer, at row `r` and column `d`: its one store covers the
    whole tile, so the buffer holds the stored value, the perceptron of row `r` of the input tile. -/
theorem tile_apply (x0 : Vec Ideal S5000x128 .f32) (w1 : Vec Ideal S128x128 .f32) (b1 : Vec Ideal S128 .f32)
    (w2 : Vec Ideal S128x128 .f32) (b2 : Vec Ideal S128 .f32) (r : Fin 5000) (d : Fin 128) :
    out1_5 (F := Ideal) x0 w1 b1 w2 b2 (ix2 r d) = Cert.Gin.rowMlp (fun j => x0 (ix2 r j)) w1 b1 w2 b2 d := by
  unfold out1_5
  rw [View.canon_unit_zero zero2]
  simp only [View.ld_unit_zero (S := S5000x128) zero2, View.ld_unit_zero (S := S128x128) zero2,
    View.ld_unit_zero (S := S128) zero1]
  exact GinPayload.pay1_apply x0 w1 b1 w2 b2 r d

/-- The output array as one function of the arrays the call reads: row `n`, column `d` is the perceptron
    of row `n` of the features. -/
def mlpArr (c : Dev nD) : S50000x128.Idx → EReal := fun i =>
  Cert.Gin.rowMlp (fun j => xarr V c (ix2 (i 0 : Fin 50000) j)) (w1arr V c) (b1arr V c) (w2arr V c) (b2arr V c)
    (i 1 : Fin 128)

theorem mlpArr_apply (c : Dev nD) (n : Fin 50000) (d : Fin 128) :
    mlpArr V c (ix2 n d)
      = Cert.Gin.rowMlp (fun j => xarr V c (ix2 n j)) (w1arr V c) (b1arr V c) (w2arr V c) (b2arr V c) d := rfl

/-- The printed index maps, decided over the ten grid points: the features' tile and the output's tile sit at
    block row `t`, block column zero; the weights and biases are whole arrays at block zero. -/
theorem index_facts : ∀ t : Fin cfg1.N,
    win1_5.index t (0 : Fin 2) = t.val ∧ win1_5.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0 :=
  (by decide +kernel : ∀ t : Fin grid1.N, _)

/-- A block of the first weight matrix's window is the whole matrix. -/
theorem blk_w1 (c : Dev nD) (t : Fin cfg1.N) : iblk1 V c 1 t = w1arr V c := by
  obtain ⟨-, -, -, -, e0, e1, -⟩ := index_facts t
  funext y
  show V c (Pipeline.arrRef spec1 1) (((cfg1.win 1).blk t).view.emb y) = V c (Pipeline.arrRef spec1 1) y
  refine congrArg _ (funext fun a => Fin.ext ?_)
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- A block of the first bias's window is the whole bias. -/
theorem blk_b1 (c : Dev nD) (t : Fin cfg1.N) : iblk1 V c 2 t = b1arr V c := by
  obtain ⟨-, -, -, -, -, -, e0, -⟩ := index_facts t
  funext y
  show V c (Pipeline.arrRef spec1 2) (((cfg1.win 2).blk t).view.emb y) = V c (Pipeline.arrRef spec1 2) y
  refine congrArg _ (funext fun a => Fin.ext ?_)
  match a with
  | ⟨0, _⟩ => show win1_2.index t (0 : Fin 1) * 128 + 1 * (y 0).val = (y 0).val; omega

/-- A block of the second weight matrix's window is the whole matrix. -/
theorem blk_w2 (c : Dev nD) (t : Fin cfg1.N) : iblk1 V c 3 t = w2arr V c := by
  obtain ⟨-, -, -, -, -, -, -, e0, e1, -⟩ := index_facts t
  funext y
  show V c (Pipeline.arrRef spec1 3) (((cfg1.win 3).blk t).view.emb y) = V c (Pipeline.arrRef spec1 3) y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- A block of the second bias's window is the whole bias. -/
theorem blk_b2 (c : Dev nD) (t : Fin cfg1.N) : iblk1 V c 4 t = b2arr V c := by
  obtain ⟨-, -, -, -, -, -, -, -, -, e0⟩ := index_facts t
  funext y
  show V c (Pipeline.arrRef spec1 4) (((cfg1.win 4).blk t).view.emb y) = V c (Pipeline.arrRef spec1 4) y
  refine congrArg _ (funext fun a => Fin.ext ?_)
  match a with
  | ⟨0, _⟩ => show win1_4.index t (0 : Fin 1) * 128 + 1 * (y 0).val = (y 0).val; omega

/-- Row `r` of the features' tile at point `t` is row `5000 t + r` of the features. -/
theorem blk_x_apply (c : Dev nD) (t : Fin cfg1.N) (r : Fin 5000) (k : Fin 128) (n : Fin 50000)
    (hn : n.val = t.val * 5000 + r.val) :
    iblk1 V c 0 t (ix2 r k) = xarr V c (ix2 n k) := by
  obtain ⟨-, -, e0, e1, -⟩ := index_facts t
  show V c (Pipeline.arrRef spec1 0) (((cfg1.win 0).blk t).view.emb (ix2 r k)) = V c (Pipeline.arrRef spec1 0) (ix2 n k)
  refine congrArg _ (funext fun a => Fin.ext ?_)
  match a with
  | ⟨0, _⟩ => show win1_0.index t (0 : Fin 2) * 5000 + 1 * r.val = n.val; omega
  | ⟨1, _⟩ => show win1_0.index t (1 : Fin 2) * 128 + 1 * k.val = k.val; omega

/-- What point `t` writes back is block `t` of `mlpArr`. -/
theorem flushed_eq (c : Dev nD) (t : Fin cfg1.N) :
    (dat1 V c).flushed 5 t = ((cfg1.win 5).blk t).view.read (Elt Ideal) (mlpArr V c) := by
  show (cfg1.win 5).cut (grid1.coords t) ((dat1 V c).after 5 t) = _
  rw [after1_5]
  obtain ⟨e0, e1, -⟩ := index_facts t
  have hN : t.val < 10 := Nat.lt_of_lt_of_eq t.isLt N_1
  funext j
  have hr : (j 0).val < 5000 := (j 0).isLt
  have hd : (j 1).val < 128 := (j 1).isLt
  have hj : (cfg1.win 5).xinj (grid1.coords t) j = ix2 (⟨(j 0).val, hr⟩ : Fin 5000) (⟨(j 1).val, hd⟩ : Fin 128) := by
    funext a
    match a with
    | ⟨0, _⟩ => rfl
    | ⟨1, _⟩ => rfl
  have hemb : ((cfg1.win 5).blk t).view.emb j
      = ix2 (⟨t.val * 5000 + (j 0).val, by omega⟩ : Fin 50000) (⟨(j 1).val, hd⟩ : Fin 128) := by
    funext a
    apply Fin.ext
    match a with
    | ⟨0, _⟩ => show win1_5.index t (0 : Fin 2) * 5000 + 1 * (j 0).val = t.val * 5000 + (j 0).val; omega
    | ⟨1, _⟩ => show win1_5.index t (1 : Fin 2) * 128 + 1 * (j 1).val = (j 1).val; omega
  show out1_5 (iblk1 V c 0 t) (iblk1 V c 1 t) (iblk1 V c 2 t) (iblk1 V c 3 t) (iblk1 V c 4 t)
      ((cfg1.win 5).xinj (grid1.coords t) j) = mlpArr V c (((cfg1.win 5).blk t).view.emb j)
  rw [hj, hemb, tile_apply, mlpArr_apply, blk_w1, blk_b1, blk_w2, blk_b2]
  congr 1
  funext k
  exact blk_x_apply V c t _ k _ rfl

/-- An index of the output array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v33).slice (win1_5.rect t)).set ↔ _
  rw [View.set_slice_whole, Rect.mem_set_unit]
  exact Iff.rfl

/-- Row `n` lies in the block of point `n / 5000`: the ten tiles cover the array. -/
theorem covered (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have ht : (i 0).val / 5000 < cfg1.N := by rw [show cfg1.N = 10 from N_1]; omega
  obtain ⟨e0, e1, -⟩ := index_facts ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    rw [e1]; omega

/-- The output array after the call is `mlpArr`. -/
theorem outarr_eq (c : Dev nD) : outarr V c = mlpArr V c :=
  (dat1 V c).arrAt_eq_of_cover 5 (mlpArr V c) (fun t _ => flushed_eq V c t) covered

/-- Row `n`, column `d` of the output is the two-layer perceptron of row `n` of the input. -/
theorem region1_apply (c : Dev nD) (n : Fin 50000) (d : Fin 128) :
    outarr V c (ix2 n d)
      = Cert.Gin.rowMlp (fun j => xarr V c (ix2 n j)) (w1arr V c) (b1arr V c) (w2arr V c) (b2arr V c) d := by
  rw [outarr_eq, mlpArr_apply]

end Cert.KernelIdeal.GinRegion1

end
-- ==== Proof.RefMlp.lean ====
/-
  The reference's dense block, element by element.

  Each layer of the reference network multiplies the aggregated features by the first weight
  matrix, adds the first bias along the rows, rectifies, multiplies by the second weight matrix,
  adds the second bias and rectifies again. `hostMlp` is that chain of host operations as the
  program prints it; read at row n and column d it is `Cert.Gin.rowMlp` of row n: a matrix
  product at an index is the sum over the contracted axis, a bias broadcast along the rows reads
  its own entry, and the rectifier's constant is the zero word.
-/
import proofs.«426931_j47957604827354_3_alg».proof.ReferenceIdeal
import proofs.«426931_j47957604827354_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.GinRef

open Idealize.ShloMosaic Idealize.ShloMosaic.TcCoe Idealize.ShloMosaic.ValueIdx
open Cert.ReferenceIdeal

variable [Cert.ReferenceIdeal.Facts]
open Cert.ReferenceIdeal.Facts₀ Cert.ReferenceIdeal.Facts

/-- The reference's two dense layers with their rectifiers, as the host operations the program prints. -/
def hostMlp (h : FVec Ideal S50000x128 .f32) (w1 : FVec Ideal S128x128 .f32) (b1 : FVec Ideal S128 .f32)
    (w2 : FVec Ideal S128x128 .f32) (b2 : FVec Ideal S128 .f32) : FVec Ideal S50000x128 .f32 :=
  maximumf
    (addf
      (Host.dotGeneral (F := Ideal) dot_S50000x128_S128x128_S50000x128_1_0_0_1_n_n none
        (maximumf
          (addf (Host.dotGeneral (F := Ideal) dot_S50000x128_S128x128_S50000x128_1_0_0_1_n_n none h w1)
            (broadcastInDim S50000x128 ![0, 1] bcast_S1x128_S50000x128_0_1 (broadcastInDim S1x128 ![1] bcast_S128_S1x128_1 b1)))
          (broadcastInDim S50000x128 ![] bcast_S_S50000x128 (constant (F := Ideal) S_ .f32 0x00000000#32)))
        w2)
      (broadcastInDim S50000x128 ![0, 1] bcast_S1x128_S50000x128_0_1 (broadcastInDim S1x128 ![1] bcast_S128_S1x128_1 b2)))
    (broadcastInDim S50000x128 ![] bcast_S_S50000x128 (constant (F := Ideal) S_ .f32 0x00000000#32))

/-- The product record's left index keeps the row of the result index … -/
theorem lhsIdx_row (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch from List.not_mem_nil),
    dif_pos (show (0 : Fin S50000x128.rank) ∈ dot_S50000x128_S128x128_S50000x128_1_0_0_1_n_n.lhsNonContracting from List.mem_singleton.2 rfl)]
  rfl

/-- … and the right index keeps its column. -/
theorem rhsIdx_col (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch from List.not_mem_nil),
    dif_pos (show (1 : Fin S128x128.rank) ∈ dot_S50000x128_S128x128_S50000x128_1_0_0_1_n_n.rhsNonContracting from List.mem_singleton.2 rfl)]
  rfl

/-- A [50000, 128] × [128, 128] matrix product at row `n`, column `d` is the sum over the contracted
    axis of row `n` of the left factor times column `d` of the right one. -/
theorem dot_apply (x : FVec Ideal S50000x128 .f32) (w : FVec Ideal S128x128 .f32) (n : Fin 50000) (d : Fin 128) :
    Host.dotGeneral (F := Ideal) dot_S50000x128_S128x128_S50000x128_1_0_0_1_n_n none x w (ix2 n d)
      = ∑ k : Fin 128, x (ix2 n k) * w (ix2 k d) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 n d)
      ((contrEquiv1 dot_S50000x128_S128x128_S50000x128_1_0_0_1_n_n 128 rfl rfl).symm k) = ix2 n k :=
    funext fun a => Fin.ext (by
      match a with
      | ⟨0, _⟩ => exact lhsIdx_row _ _
      | ⟨1, _⟩ => exact (dot_S50000x128_S128x128_S50000x128_1_0_0_1_n_n.lhsIdx_val_of_single rfl _ _).trans hk)
  have er : dot_S50000x128_S128x128_S50000x128_1_0_0_1_n_n.rhsIdx (ix2 n d)
      ((contrEquiv1 dot_S50000x128_S128x128_S50000x128_1_0_0_1_n_n 128 rfl rfl).symm k) = ix2 k d :=
    funext fun a => Fin.ext (by
      match a with
      | ⟨0, _⟩ => exact (dot_S50000x128_S128x128_S50000x128_1_0_0_1_n_n.rhsIdx_val_of_single rfl _ _).trans hk
      | ⟨1, _⟩ => exact rhsIdx_col _ _)
  rw [el, er]

/-- A bias vector broadcast along the rows, [128] to [1, 128] to [50000, 128], reads its own entry `d`
    at every row. -/
theorem bias_apply (b : FVec Ideal S128 .f32) (n : Fin 50000) (d : Fin 128) :
    broadcastInDim S50000x128 ![0, 1] bcast_S1x128_S50000x128_0_1 (broadcastInDim S1x128 ![1] bcast_S128_S1x128_1 b) (ix2 n d)
      = b (ix1 d) := by
  have e1 : broadcastInDim S50000x128 ![0, 1] bcast_S1x128_S50000x128_0_1
      (broadcastInDim S1x128 ![1] bcast_S128_S1x128_1 b) (ix2 n d)
      = broadcastInDim S1x128 ![1] bcast_S128_S1x128_1 b (ix2 (0 : Fin 1) d) := by
    generalize broadcastInDim S1x128 ![1] bcast_S128_S1x128_1 b = y
    exact broadcastInDim_apply ![0, 1] bcast_S1x128_S50000x128_0_1 y (ix2 n d) (ix2 (0 : Fin 1) d) (fun a => match a with
      | ⟨0, _⟩ => by show (0 : Nat) = if (1 : Nat) = 1 then 0 else n.val; rw [if_pos rfl]
      | ⟨1, _⟩ => by show d.val = if (128 : Nat) = 1 then 0 else d.val; rw [if_neg (by decide)])
  rw [e1]
  exact broadcastInDim_apply ![1] bcast_S128_S1x128_1 b (ix2 (0 : Fin 1) d) (ix1 d) (fun a => match a with
    | ⟨0, _⟩ => by show d.val = if (128 : Nat) = 1 then 0 else d.val; rw [if_neg (by decide)])

/-- The rectifier's constant, the zero word broadcast to [50000, 128], is zero everywhere. -/
theorem zero_apply (i : S50000x128.Idx) :
    broadcastInDim S50000x128 ![] bcast_S_S50000x128 (constant (F := Ideal) S_ .f32 0x00000000#32) i = 0 :=
  (broadcastInDim_apply ![] bcast_S_S50000x128 (constant (F := Ideal) S_ .f32 0x00000000#32) i ix0 (fun a => a.elim0)).trans
    Ideal.ofBits_zero_f32

/-- Row `n`, column `d` of the dense block is the two-layer perceptron of row `n` of its input. -/
theorem hostMlp_apply (h : FVec Ideal S50000x128 .f32) (w1 : FVec Ideal S128x128 .f32) (b1 : FVec Ideal S128 .f32)
    (w2 : FVec Ideal S128x128 .f32) (b2 : FVec Ideal S128 .f32) (n : Fin 50000) (d : Fin 128) :
    hostMlp h w1 b1 w2 b2 (ix2 n d) = Cert.Gin.rowMlp (fun j => h (ix2 n j)) w1 b1 w2 b2 d := by
  unfold hostMlp Cert.Gin.rowMlp
  rw [maximumf_apply, addf_apply, zero_apply, bias_apply, dot_apply]
  congr 2
  refine Finset.sum_congr rfl fun k _ => ?_
  rw [maximumf_apply, addf_apply, zero_apply, bias_apply, dot_apply]

end Cert.ReferenceIdeal.GinRef

end
-- ==== Proof.RefLayers.lean ====
/-
  The reference network's three layers, as the same host functions the three-call program names.

  Each layer of the reference first aggregates: the features plus, on a zero matrix, the rows
  gathered at the edges' sources added at their destinations; adding onto zero and then adding
  the features is adding onto the features. It then applies the dense block. The edge rows and
  the wrapped node ids are computed anew in every layer, by the same operations, so they are
  the same functions of the edge list each time.

  The road: the first layer's aggregation is proved for any feature matrix, element by element
  (the scatter onto zero is zero plus the scattered sum); the second and third layers' are the
  same stage applied to the previous layer's output, which is named by a variable before the two
  spellings are compared. Each dense block unfolds, stage by stage, to the chain of host operations
  that `hostMlp` is, again with the aggregated input named by a variable first.
-/
import proofs.«426931_j47957604827354_3_alg».proof.Proof.Gen.ReferenceIdeal.Read
import proofs.«426931_j47957604827354_3_alg».proof.Proof.KFold
import proofs.«426931_j47957604827354_3_alg».proof.Proof.RefMlp
import Idealize.ShloMosaic.Lib.ValueIdx
import Idealize.ShloMosaic.PureOps.Ideal.Laws

set_option maxRecDepth 16384

noncomputable section

open scoped BigOperators

namespace Cert.GinRefLayers

open Idealize.ShloMosaic Idealize.ShloMosaic.TcCoe Idealize.ShloMosaic.ValueIdx
open Cert.ReferenceIdeal.Read Cert.ReferenceIdeal.GinRef Cert.KernelIdeal.GinFold

variable (x0 : FVec Ideal Cert.ReferenceIdeal.S50000x128 .f32) (x1 : IVec Cert.ReferenceIdeal.S2x600000 32) (x3 : FVec Ideal Cert.ReferenceIdeal.S128x128 .f32) (x4 : FVec Ideal Cert.ReferenceIdeal.S128 .f32) (x5 : FVec Ideal Cert.ReferenceIdeal.S128x128 .f32) (x6 : FVec Ideal Cert.ReferenceIdeal.S128 .f32) (x7 : FVec Ideal Cert.ReferenceIdeal.S128x128 .f32) (x8 : FVec Ideal Cert.ReferenceIdeal.S128 .f32) (x9 : FVec Ideal Cert.ReferenceIdeal.S128x128 .f32) (x10 : FVec Ideal Cert.ReferenceIdeal.S128 .f32) (x11 : FVec Ideal Cert.ReferenceIdeal.S128x128 .f32) (x12 : FVec Ideal Cert.ReferenceIdeal.S128 .f32) (x13 : FVec Ideal Cert.ReferenceIdeal.S128x128 .f32) (x14 : FVec Ideal Cert.ReferenceIdeal.S128 .f32)

/-- The first layer's aggregation. -/
theorem layer1_agg : val_main_v19 (F := Ideal) x0 x1 = aggK x0 (srcOf x1) (dstOf x1) := by
  funext i
  rw [val_main_v19_apply]
  unfold val_main_v18 aggK
  simp only [Host.scatterAdd, Ideal.hostScatterAdd_def, Ideal.hostScatterAdd]
  have h4 : val_main_v4 (F := Ideal) i = 0 := by
    unfold val_main_v4 val_main_cst
    show Ideal.ofBits .f32 0x00000000#32 = 0
    exact Ideal.ofBits_zero_f32
  rw [h4, zero_add]
  rfl
/-- The first layer's dense block. -/
theorem layer1_mlp : val_main_v29 (F := Ideal) x0 x1 x3 x4 x5 x6 = hostMlp (val_main_v19 (F := Ideal) x0 x1) x3 x4 x5 x6 := by
  unfold val_main_v29 val_main_v28 val_main_v27 val_main_v26 val_main_v25 val_main_v24 val_main_v23 val_main_v22
    val_main_v21 val_main_v20 val_main_call0_v0 val_main_call0_cst val_main_call1_v0 val_main_call1_cst hostMlp
  generalize val_main_v19 (F := Ideal) x0 x1 = h
  rfl
/-- The second layer's aggregation, of the first layer's output. -/
theorem layer2_agg : val_main_v49 (F := Ideal) x0 x1 x3 x4 x5 x6 = aggK (val_main_v29 (F := Ideal) x0 x1 x3 x4 x5 x6) (srcOf x1) (dstOf x1) := by
  refine Eq.trans ?_ (layer1_agg (val_main_v29 (F := Ideal) x0 x1 x3 x4 x5 x6) x1)
  unfold val_main_v49 val_main_v48 val_main_v41 val_main_v19 val_main_v18 val_main_v11
  generalize val_main_v29 (F := Ideal) x0 x1 x3 x4 x5 x6 = h
  rfl
/-- The second layer's dense block. -/
theorem layer2_mlp : val_main_v59 (F := Ideal) x0 x1 x3 x4 x5 x6 x7 x8 x9 x10 = hostMlp (val_main_v49 (F := Ideal) x0 x1 x3 x4 x5 x6) x7 x8 x9 x10 := by
  unfold val_main_v59 val_main_v58 val_main_v57 val_main_v56 val_main_v55 val_main_v54 val_main_v53 val_main_v52
    val_main_v51 val_main_v50 val_main_call2_v0 val_main_call2_cst val_main_call3_v0 val_main_call3_cst hostMlp
  generalize val_main_v49 (F := Ideal) x0 x1 x3 x4 x5 x6 = h
  rfl
/-- The third layer's aggregation, of the second layer's output. -/
theorem layer3_agg : val_main_v79 (F := Ideal) x0 x1 x3 x4 x5 x6 x7 x8 x9 x10 = aggK (val_main_v59 (F := Ideal) x0 x1 x3 x4 x5 x6 x7 x8 x9 x10) (srcOf x1) (dstOf x1) := by
  refine Eq.trans ?_ (layer1_agg (val_main_v59 (F := Ideal) x0 x1 x3 x4 x5 x6 x7 x8 x9 x10) x1)
  unfold val_main_v79 val_main_v78 val_main_v71 val_main_v19 val_main_v18 val_main_v11
  generalize val_main_v59 (F := Ideal) x0 x1 x3 x4 x5 x6 x7 x8 x9 x10 = h
  rfl
/-- The third layer's dense block. -/
theorem layer3_mlp : val_main_v89 (F := Ideal) x0 x1 x3 x4 x5 x6 x7 x8 x9 x10 x11 x12 x13 x14 = hostMlp (val_main_v79 (F := Ideal) x0 x1 x3 x4 x5 x6 x7 x8 x9 x10) x11 x12 x13 x14 := by
  unfold val_main_v89 val_main_v88 val_main_v87 val_main_v86 val_main_v85 val_main_v84 val_main_v83 val_main_v82
    val_main_v81 val_main_v80 val_main_call4_v0 val_main_call4_cst val_main_call5_v0 val_main_call5_cst hostMlp
  generalize val_main_v79 (F := Ideal) x0 x1 x3 x4 x5 x6 x7 x8 x9 x10 = h
  rfl

end Cert.GinRefLayers

end
-- ==== Proof.BridgeLayers.lean ====
/-
  The three layers of the two programs give the same arrays.

  The aggregated features are the same host function of the previous layer's output and the
  edge list on both sides; each call's output row is the two-layer perceptron of the matching
  input row, and so is the reference's dense block. So the first call's output is the
  reference's first layer, the second call's its second layer, and the third call's input its
  third aggregation.
-/
import proofs.«426931_j47957604827354_3_alg».proof.Proof.KFold
import proofs.«426931_j47957604827354_3_alg».proof.Proof.KRegion0
import proofs.«426931_j47957604827354_3_alg».proof.Proof.KRegion1
import proofs.«426931_j47957604827354_3_alg».proof.Proof.RefMlp
import proofs.«426931_j47957604827354_3_alg».proof.Proof.RefLayers
import proofs.«426931_j47957604827354_3_alg».proof.Proof.Gen.ReferenceIdeal.Read
import proofs.«426931_j47957604827354_3_alg».proof.Proof.Spec
import Idealize.ShloMosaic.Lib.ValueIdx

set_option maxRecDepth 16384

noncomputable section

open scoped BigOperators

namespace Cert.GinBridge

open Idealize.ShloMosaic Idealize.ShloMosaic.TcCoe Idealize.SL.Sem Idealize.ShloMosaic.ValueIdx
open Cert.KernelIdeal Cert.KernelIdeal.Gen Cert.KernelIdeal.GinFold Cert.KernelIdeal.GinFoldArgs

variable (m : (ℓ : Loc nD τ sig) → Buf (Elt Ideal) ℓ) (ρ : Dev nD → PrngReg)

/-- The first call's output array is the reference's first layer. -/
theorem out0_eq (c : Dev nD) :
    ((dat0 (F := Ideal) (V1 m ρ) c).arrAt 5 cfg0.N : FVec Ideal S50000x128 .f32)
      = Cert.ReferenceIdeal.Read.val_main_v29 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  -- the call's five operands as it finds them: the aggregated argument features, and the first layer's
  -- weights and biases as launched
  have hx : GinRegion0.xarr (V1 m ρ) c = _ := W1_agg m ρ c
  have h1 : GinRegion0.w1arr (V1 m ρ) c = _ := W1_arg3 m ρ c
  have h2 : GinRegion0.b1arr (V1 m ρ) c = _ := W1_arg4 m ρ c
  have h3 : GinRegion0.w2arr (V1 m ρ) c = _ := W1_arg5 m ρ c
  have h4 : GinRegion0.b2arr (V1 m ρ) c = _ := W1_arg6 m ρ c
  funext i
  obtain ⟨n, d, rfl⟩ : ∃ (n : Fin 50000) (d : Fin 128), i = ix2 n d := ⟨i 0, i 1, eq_ix2 i⟩
  -- both sides at row n, column d are the perceptron of row n of the same aggregated features
  refine (GinRegion0.region0_apply (V1 m ρ) c n d).trans ?_
  rw [hx, h1, h2, h3, h4, Cert.GinRefLayers.layer1_mlp, Cert.ReferenceIdeal.GinRef.hostMlp_apply,
    Cert.GinRefLayers.layer1_agg]

/-- The second call's output array is the reference's second layer. -/
theorem out1_eq (c : Dev nD) :
    ((dat1 (F := Ideal) (V3 m ρ) c).arrAt 5 cfg1.N : FVec Ideal S50000x128 .f32)
      = Cert.ReferenceIdeal.Read.val_main_v59 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  -- the call's five operands as it finds them: the aggregated output of the first call, which is the
  -- reference's first layer, and the second layer's weights and biases as launched
  have hx : GinRegion1.xarr (V3 m ρ) c = _ :=
    (W3_agg m ρ c).trans (congrArg (fun h => aggK h (srcOf (m ((c.tc : Thread nD τ).loc main_arg1))) (dstOf (m ((c.tc : Thread nD τ).loc main_arg1))))
      ((W2_out m ρ c).trans (out0_eq m ρ c)))
  have h1 : GinRegion1.w1arr (V3 m ρ) c = _ := W3_arg7 m ρ c
  have h2 : GinRegion1.b1arr (V3 m ρ) c = _ := W3_arg8 m ρ c
  have h3 : GinRegion1.w2arr (V3 m ρ) c = _ := W3_arg9 m ρ c
  have h4 : GinRegion1.b2arr (V3 m ρ) c = _ := W3_arg10 m ρ c
  funext i
  obtain ⟨n, d, rfl⟩ : ∃ (n : Fin 50000) (d : Fin 128), i = ix2 n d := ⟨i 0, i 1, eq_ix2 i⟩
  refine (GinRegion1.region1_apply (V3 m ρ) c n d).trans ?_
  rw [hx, h1, h2, h3, h4, Cert.GinRefLayers.layer2_mlp, Cert.ReferenceIdeal.GinRef.hostMlp_apply,
    Cert.GinRefLayers.layer2_agg]

/-- The third call's input is the reference's third aggregation. -/
theorem agg3_eq (c : Dev nD) :
    (W5 m ρ c (Proc.devRef .tc main_v47) : FVec Ideal S50000x128 .f32)
      = Cert.ReferenceIdeal.Read.val_main_v79 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [Cert.GinRefLayers.layer3_agg]
  exact (W5_agg m ρ c).trans (congrArg (fun h => aggK h (srcOf (m ((c.tc : Thread nD τ).loc main_arg1))) (dstOf (m ((c.tc : Thread nD τ).loc main_arg1))))
    ((W4_out m ρ c).trans (out1_eq m ρ c)))

end Cert.GinBridge

end
-- ==== Proof.KRegion2.lean ====
/-
  What the third pallas_call leaves in its output array, element by element.

  The call cuts the fifty thousand rows of the aggregated features, and of the graph-membership
  indicator matrix, into ten tiles of five thousand rows. At tile `t` the body applies the
  two-layer perceptron to every row of the tile (as the first two calls do) and then multiplies
  the transposed indicator tile by the result: entry (g, d) of block `t` of the output is the
  sum, over the tile's rows r, of indicator[row, g] times the perceptron of that row at d.

  The road: the body's single store covers its output block, so the block holds the body's value
  (`pool_out_eq_payload`, read at an index by `pool_payload_entry`); row r of a tile at point t is row
  5000·t + r of its array, and the weight and bias windows are their whole arrays (`xblk_apply` …
  `b2blk_eq`); so what point t writes back is block t of one function `pooled` of the arrays
  (`pool_flushed_eq`); the ten blocks [1,64,128] tile the output, index (t, g, d) lying in block t
  (`pool_covered`); hence the array ends as `pooled` (`outarr_eq`).
-/
import proofs.«426931_j47957604827354_3_alg».proof.Proof.Gen.KernelIdeal.Frame
import proofs.«426931_j47957604827354_3_alg».proof.Proof.Spec
import proofs.«426931_j47957604827354_3_alg».proof.Proof.KPayload
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.GinRegion2

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

/-- The aggregated features the call reads (its first operand), as entered. -/
abbrev xarr (c : Dev nD) : S50000x128.Idx → EReal := V c (Pipeline.arrRef spec2 0)
/-- The first layer's weights. -/
abbrev w1arr (c : Dev nD) : S128x128.Idx → EReal := V c (Pipeline.arrRef spec2 1)
/-- The first layer's bias. -/
abbrev b1arr (c : Dev nD) : S128.Idx → EReal := V c (Pipeline.arrRef spec2 2)
/-- The second layer's weights. -/
abbrev w2arr (c : Dev nD) : S128x128.Idx → EReal := V c (Pipeline.arrRef spec2 3)
/-- The second layer's bias. -/
abbrev b2arr (c : Dev nD) : S128.Idx → EReal := V c (Pipeline.arrRef spec2 4)
/-- The graph-membership indicator matrix (node by graph), as entered. -/
abbrev oharr (c : Dev nD) : S50000x64.Idx → EReal := V c (Pipeline.arrRef spec2 5)
/-- The call's output array (tile by graph by feature) after its last write-back. -/
abbrev outarr (c : Dev nD) : S10x64x128.Idx → EReal := (Gen.dat2 (F := Ideal) V c).arrAt 6 cfg2.N

/-- Offsets written as a vector of zeros are the zero function (rank 3, 2, 1). -/
theorem pool_zeros3 : (![0, 0, 0] : Fin 3 → Nat) = fun _ => 0 := funext fun a => by fin_cases a <;> rfl
theorem pool_zeros2 : (![0, 0] : Fin 2 → Nat) = fun _ => 0 := funext fun a => by fin_cases a <;> rfl
theorem pool_zeros1 : (![0] : Fin 1 → Nat) = fun _ => 0 := funext fun a => by fin_cases a <;> rfl

/-- The body's one store fills the whole output block, and its loads read whole blocks: the block holds the body's value. -/
theorem pool_out_eq_payload (x0 : Vec Ideal S5000x128 .f32) (x1 : Vec Ideal S128x128 .f32) (x2 : Vec Ideal S128 .f32)
    (x3 : Vec Ideal S128x128 .f32) (x4 : Vec Ideal S128 .f32) (x5 : Vec Ideal S5000x64 .bf16) :
    out2_6 (F := Ideal) x0 x1 x2 x3 x4 x5 = k2_pay1 (F := Ideal) x0 x1 x2 x3 x4 x5 := by
  unfold out2_6
  rw [View.canon_unit_zero pool_zeros3]
  simp only [View.ld_unit_zero (S := S5000x128) pool_zeros2, View.ld_unit_zero (S := S128x128) pool_zeros2,
    View.ld_unit_zero (S := S128) pool_zeros1, View.ld_unit_zero (S := S5000x64) pool_zeros2]

/-- The body's value at an index (0, g, d) of its block: the indicator-weighted sum over the tile's rows. -/
theorem pool_payload_entry (x0 : Vec Ideal S5000x128 .f32) (w1 : Vec Ideal S128x128 .f32) (b1 : Vec Ideal S128 .f32)
    (w2 : Vec Ideal S128x128 .f32) (b2 : Vec Ideal S128 .f32) (oh : Vec Ideal S5000x64 .bf16)
    (y : S1x64x128.Idx) (g : Fin 64) (d : Fin 128) (hg : (y 1).val = g.val) (hd : (y 2).val = d.val) :
    k2_pay1 (F := Ideal) x0 w1 b1 w2 b2 oh y
      = ∑ r : Fin 5000, oh (ix2 r g) * Cert.Gin.rowMlp (fun j => x0 (ix2 r j)) w1 b1 w2 b2 d := by
  have h0 : (y 0).val < 1 := (y 0).isLt
  have hy : y = ix3 (0 : Fin 1) g d := by
    funext a
    apply Fin.ext
    match a with
    | ⟨0, _⟩ => show (y 0).val = 0; omega
    | ⟨1, _⟩ => exact hg
    | ⟨2, _⟩ => exact hd
  refine (congrArg (k2_pay1 (F := Ideal) x0 w1 b1 w2 b2 oh) hy).trans ?_
  exact GinPayload.pay2_apply x0 w1 b1 w2 b2 oh g d

/-- The tile a grid point works on. -/
def poolTile (t : Fin cfg2.N) : Fin 10 := ⟨t.val, lt_of_lt_of_eq t.isLt (show cfg2.N = 10 from N_2)⟩

/-- Its number is the point's. -/
theorem poolTile_val (t : Fin cfg2.N) : (poolTile t).val = t.val := rfl

/-- The windows' block indices at every grid point: the feature tile, the indicator tile and the output block
    move with the point along their first axis; the weights and biases stay at block zero. -/
theorem pool_index_maps : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0
    ∧ win2_6.index t (0 : Fin 3) = t.val ∧ win2_6.index t (1 : Fin 3) = 0 ∧ win2_6.index t (2 : Fin 3) = 0 :=
  (by decide +kernel : ∀ t : Fin grid2.N, _)

/-- The indicator-weighted sum of the perceptron's rows over tile `t`, at graph `g` and feature `d`. -/
def pooledAt (c : Dev nD) (t : Fin 10) (g : Fin 64) (d : Fin 128) : EReal :=
  ∑ r : Fin 5000, oharr V c (ix2 (Cert.Gin.tileRow t r) g)
    * Cert.Gin.rowMlp (fun j => xarr V c (ix2 (Cert.Gin.tileRow t r) j)) (w1arr V c) (b1arr V c) (w2arr V c) (b2arr V c) d

/-- The whole output array as one function of the arrays the call reads. -/
def pooled (c : Dev nD) : S10x64x128.Idx → EReal := fun i => pooledAt V c (i 0) (i 1) (i 2)

/-- The six input blocks at a point, each at its literal type. -/
abbrev xblk (c : Dev nD) (t : Fin cfg2.N) : Vec Ideal S5000x128 .f32 := iblk2 (F := Ideal) V c 0 t
abbrev w1blk (c : Dev nD) (t : Fin cfg2.N) : Vec Ideal S128x128 .f32 := iblk2 (F := Ideal) V c 1 t
abbrev b1blk (c : Dev nD) (t : Fin cfg2.N) : Vec Ideal S128 .f32 := iblk2 (F := Ideal) V c 2 t
abbrev w2blk (c : Dev nD) (t : Fin cfg2.N) : Vec Ideal S128x128 .f32 := iblk2 (F := Ideal) V c 3 t
abbrev b2blk (c : Dev nD) (t : Fin cfg2.N) : Vec Ideal S128 .f32 := iblk2 (F := Ideal) V c 4 t
abbrev ohblk (c : Dev nD) (t : Fin cfg2.N) : Vec Ideal S5000x64 .bf16 := iblk2 (F := Ideal) V c 5 t

/-- Row `r` of the feature tile at point `t` is row `5000·t + r` of the feature array. -/
theorem xblk_apply (c : Dev nD) (t : Fin cfg2.N) (r : Fin 5000) (j : Fin 128) :
    xblk V c t (ix2 r j) = xarr V c (ix2 (Cert.Gin.tileRow (poolTile t) r) j) := by
  obtain ⟨e0, e1, -⟩ := pool_index_maps t
  unfold xblk iblk2
  rw [View.read_apply]
  show V c (Pipeline.arrRef spec2 0) _ = V c (Pipeline.arrRef spec2 0) _
  congr 1
  funext a
  apply Fin.ext
  match a with
  | ⟨0, _⟩ => show win2_0.index t (0 : Fin 2) * 5000 + 1 * r.val = 5000 * t.val + r.val; rw [e0]; omega
  | ⟨1, _⟩ => show win2_0.index t (1 : Fin 2) * 128 + 1 * j.val = j.val; rw [e1]; omega

/-- Row `r` of the indicator tile at point `t` is row `5000·t + r` of the indicator matrix. -/
theorem ohblk_apply (c : Dev nD) (t : Fin cfg2.N) (r : Fin 5000) (g : Fin 64) :
    ohblk V c t (ix2 r g) = oharr V c (ix2 (Cert.Gin.tileRow (poolTile t) r) g) := by
  obtain ⟨-, -, -, -, -, -, -, -, e0, e1, -⟩ := pool_index_maps t
  unfold ohblk iblk2
  rw [View.read_apply]
  show V c (Pipeline.arrRef spec2 5) _ = V c (Pipeline.arrRef spec2 5) _
  congr 1
  funext a
  apply Fin.ext
  match a with
  | ⟨0, _⟩ => show win2_5.index t (0 : Fin 2) * 5000 + 1 * r.val = 5000 * t.val + r.val; rw [e0]; omega
  | ⟨1, _⟩ => show win2_5.index t (1 : Fin 2) * 64 + 1 * g.val = g.val; rw [e1]; omega

/-- The weight and bias windows are whole arrays: their block at every point is the array. -/
theorem w1blk_eq (c : Dev nD) (t : Fin cfg2.N) : w1blk V c t = w1arr V c := by
  obtain ⟨-, -, e0, e1, -⟩ := pool_index_maps t
  funext y
  unfold w1blk iblk2
  rw [View.read_apply]
  show V c (Pipeline.arrRef spec2 1) _ = V c (Pipeline.arrRef spec2 1) y
  congr 1
  funext a
  apply Fin.ext
  match a with
  | ⟨0, _⟩ => show win2_1.index t (0 : Fin 2) * 128 + 1 * (y 0).val = (y 0).val; rw [e0]; omega
  | ⟨1, _⟩ => show win2_1.index t (1 : Fin 2) * 128 + 1 * (y 1).val = (y 1).val; rw [e1]; omega

/-- Likewise the first bias, -/
theorem b1blk_eq (c : Dev nD) (t : Fin cfg2.N) : b1blk V c t = b1arr V c := by
  obtain ⟨-, -, -, -, e0, -⟩ := pool_index_maps t
  funext y
  unfold b1blk iblk2
  rw [View.read_apply]
  show V c (Pipeline.arrRef spec2 2) _ = V c (Pipeline.arrRef spec2 2) y
  congr 1
  funext a
  apply Fin.ext
  match a with
  | ⟨0, _⟩ => show win2_2.index t (0 : Fin 1) * 128 + 1 * (y 0).val = (y 0).val; rw [e0]; omega

/-- the second weights, -/
theorem w2blk_eq (c : Dev nD) (t : Fin cfg2.N) : w2blk V c t = w2arr V c := by
  obtain ⟨-, -, -, -, -, e0, e1, -⟩ := pool_index_maps t
  funext y
  unfold w2blk iblk2
  rw [View.read_apply]
  show V c (Pipeline.arrRef spec2 3) _ = V c (Pipeline.arrRef spec2 3) y
  congr 1
  funext a
  apply Fin.ext
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

/-- and the second bias. -/
theorem b2blk_eq (c : Dev nD) (t : Fin cfg2.N) : b2blk V c t = b2arr V c := by
  obtain ⟨-, -, -, -, -, -, -, e0, -⟩ := pool_index_maps t
  funext y
  unfold b2blk iblk2
  rw [View.read_apply]
  show V c (Pipeline.arrRef spec2 4) _ = V c (Pipeline.arrRef spec2 4) y
  congr 1
  funext a
  apply Fin.ext
  match a with
  | ⟨0, _⟩ => show win2_4.index t (0 : Fin 1) * 128 + 1 * (y 0).val = (y 0).val; rw [e0]; omega

/-- What point `t` writes back is block `t` of `pooled`. -/
theorem pool_flushed_eq (c : Dev nD) (t : Fin cfg2.N) :
    (dat2 (F := Ideal) V c).flushed 6 t = ((cfg2.win 6).blk t).view.read (Elt Ideal) (pooled V c) := by
  show (cfg2.win 6).cut (grid2.coords t) ((dat2 (F := Ideal) V c).after 6 t) = _
  rw [after2_6]
  show (cfg2.win 6).cut (grid2.coords t) (out2_6 (F := Ideal) (xblk V c t) (w1blk V c t) (b1blk V c t) (w2blk V c t) (b2blk V c t) (ohblk V c t)) = _
  rw [pool_out_eq_payload (xblk V c t) (w1blk V c t) (b1blk V c t) (w2blk V c t) (b2blk V c t) (ohblk V c t)]
  obtain ⟨-, -, -, -, -, -, -, -, -, -, e0, e1, e2⟩ := pool_index_maps t
  funext y
  rw [View.read_apply]
  have hy1 : (y 1).val < 64 := (y 1).isLt
  have hy2 : (y 2).val < 128 := (y 2).isLt
  have hy0 : (y 0).val < 1 := (y 0).isLt
  have hemb : ((cfg2.win 6).blk t).view.emb y = ix3 (poolTile t) (⟨(y 1).val, hy1⟩ : Fin 64) (⟨(y 2).val, hy2⟩ : Fin 128) := by
    funext a
    apply Fin.ext
    match a with
    | ⟨0, _⟩ => show win2_6.index t (0 : Fin 3) * 1 + 1 * (y 0).val = t.val; rw [e0]; omega
    | ⟨1, _⟩ => show win2_6.index t (1 : Fin 3) * 64 + 1 * (y 1).val = (y 1).val; rw [e1]; omega
    | ⟨2, _⟩ => show win2_6.index t (2 : Fin 3) * 128 + 1 * (y 2).val = (y 2).val; rw [e2]; omega
  rw [hemb]
  show k2_pay1 (F := Ideal) (xblk V c t) (w1blk V c t) (b1blk V c t) (w2blk V c t) (b2blk V c t) (ohblk V c t) y
    = pooledAt V c (poolTile t) ⟨(y 1).val, hy1⟩ ⟨(y 2).val, hy2⟩
  refine (pool_payload_entry (xblk V c t) (w1blk V c t) (b1blk V c t) (w2blk V c t) (b2blk V c t) (ohblk V c t) y
    ⟨(y 1).val, hy1⟩ ⟨(y 2).val, hy2⟩ rfl rfl).trans ?_
  unfold pooledAt
  rw [w1blk_eq, b1blk_eq, w2blk_eq, b2blk_eq]
  refine Finset.sum_congr rfl fun r _ => ?_
  rw [ohblk_apply]
  congr 2
  funext j
  exact xblk_apply V c t r j

/-- An index of the output array lies in point `t`'s block iff each coordinate is in the block's range. -/
theorem pool_mem_block (t : Fin cfg2.N) (i : S10x64x128.Idx) :
    i ∈ ((cfg2.win 6).blk t).view.set ↔ ∀ a : Fin 3, win2_6.index t a * S1x64x128.size a ≤ (i a).val ∧ (i a).val < win2_6.index t a * S1x64x128.size a + S1x64x128.size a := by
  show i ∈ ((View.whole main_v54).slice (win2_6.rect t)).set ↔ _
  rw [View.set_slice_whole, Rect.mem_set_unit]
  exact Iff.rfl

/-- Every index (t, g, d) of the output array lies in the block of point `t`. -/
theorem pool_covered (i : S10x64x128.Idx) :
    ∃ t : Fin cfg2.N, (cfg2.win 6).flush t = true ∧ i ∈ ((cfg2.win 6).blk t).view.set := by
  have hi0 : (i 0).val < 10 := (i 0).isLt
  have hi1 : (i 1).val < 64 := (i 1).isLt
  have hi2 : (i 2).val < 128 := (i 2).isLt
  obtain ⟨t, ht⟩ : ∃ t : Fin cfg2.N, t.val = (i 0).val :=
    ⟨⟨(i 0).val, lt_of_lt_of_eq hi0 (show cfg2.N = 10 from N_2).symm⟩, rfl⟩
  obtain ⟨-, -, -, -, -, -, -, -, -, -, e0, e1, e2⟩ := pool_index_maps t
  refine ⟨t, flush2_6 t, ?_⟩
  rw [pool_mem_block]
  intro a
  match a with
  | ⟨0, _⟩ => show win2_6.index t (0 : Fin 3) * 1 ≤ (i 0).val ∧ (i 0).val < win2_6.index t (0 : Fin 3) * 1 + 1; rw [e0]; omega
  | ⟨1, _⟩ => show win2_6.index t (1 : Fin 3) * 64 ≤ (i 1).val ∧ (i 1).val < win2_6.index t (1 : Fin 3) * 64 + 64; rw [e1]; omega
  | ⟨2, _⟩ => show win2_6.index t (2 : Fin 3) * 128 ≤ (i 2).val ∧ (i 2).val < win2_6.index t (2 : Fin 3) * 128 + 128; rw [e2]; omega

/-- The output array after the last write-back is `pooled`. -/
theorem outarr_eq (c : Dev nD) : outarr V c = pooled V c :=
  (dat2 (F := Ideal) V c).arrAt_eq_of_cover 6 (pooled V c) (fun t _ => pool_flushed_eq V c t) pool_covered

/-- Entry (t, g, d) of the output: the indicator-weighted sum of the perceptron's rows over tile `t`. -/
theorem region2_apply (c : Dev nD) (t : Fin 10) (g : Fin 64) (d : Fin 128) :
    outarr V c (ix3 t g d)
      = ∑ r : Fin 5000, oharr V c (ix2 (Cert.Gin.tileRow t r) g)
          * Cert.Gin.rowMlp (fun j => xarr V c (ix2 (Cert.Gin.tileRow t r) j)) (w1arr V c) (b1arr V c) (w2arr V c) (b2arr V c) d := by
  rw [outarr_eq]
  rfl

end Cert.KernelIdeal.GinRegion2

end
-- ==== Proof.PoolRead.lean ====
/-
  Two host operations of the three-call program, read at one element.

  The indicator matrix compares each node's graph id, repeated along a row, with the column
  numbers 0 … 63 and writes the comparison's bit as a float: entry (n, g) is one when the id is
  the word of the number g, zero otherwise. After the third call the host adds its ten output
  tiles: entry (g, d) of the sum is the zero it starts from plus the sum over the tiles t of
  entry (t, g, d).
-/
import proofs.«426931_j47957604827354_3_alg».proof.Proof.KFold
import proofs.«426931_j47957604827354_3_alg».proof.Proof.Spec
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws

noncomputable section

open scoped BigOperators

namespace Cert.KernelIdeal.GinPoolRead

open Idealize.ShloMosaic Idealize.ShloMosaic.TcCoe Idealize.ShloMosaic.ValueIdx
open Cert.KernelIdeal Cert.KernelIdeal.Gen Cert.KernelIdeal.GinFold

/-- The graph ids as a column, repeated along the sixty-four columns: entry (n, g) is node n's id. -/
theorem idCol_apply (batch : IVec S50000 32) (n : Fin 50000) (g : Fin 64) :
    broadcastInDim S50000x64 ![0, 1] bcast_S50000x1_S50000x64_0_1 (shapeCast S50000x1 batch shapeCasts_S50000_S50000x1) (ix2 n g)
      = batch (ix1 n) := by
  have e1 : broadcastInDim S50000x64 ![0, 1] bcast_S50000x1_S50000x64_0_1
      (shapeCast S50000x1 batch shapeCasts_S50000_S50000x1) (ix2 n g)
      = shapeCast S50000x1 batch shapeCasts_S50000_S50000x1 (ix2 n (0 : Fin 1)) := by
    generalize shapeCast S50000x1 batch shapeCasts_S50000_S50000x1 = y
    exact broadcastInDim_apply ![0, 1] bcast_S50000x1_S50000x64_0_1 y (ix2 n g) (ix2 n (0 : Fin 1)) (fun a => match a with
      | ⟨0, _⟩ => by show n.val = if (50000 : Nat) = 1 then 0 else n.val; rw [if_neg (by decide)]
      | ⟨1, _⟩ => by show (0 : Nat) = if (1 : Nat) = 1 then 0 else g.val; rw [if_pos rfl])
  rw [e1]
  exact shapeCast_apply batch shapeCasts_S50000_S50000x1 (ix2 n (0 : Fin 1)) (ix1 n)
    (by rewrite [Shape.rowMajor_val_two, Shape.rowMajor_val_one]; show n.val = n.val * 1 + 0; omega)

/-- The column numbers 0 … 63, repeated along the rows: entry (n, g) is the word of g. -/
theorem colNum_apply (n : Fin 50000) (g : Fin 64) :
    broadcastInDim S50000x64 ![0, 1] bcast_S1x64_S50000x64_0_1 (iotaInDim S1x64 32 1) (ix2 n g) = BitVec.ofNat 32 g.val :=
  broadcastInDim_apply ![0, 1] bcast_S1x64_S50000x64_0_1 (iotaInDim S1x64 32 1) (ix2 n g) (ix2 (0 : Fin 1) g) (fun a => match a with
    | ⟨0, _⟩ => by show (0 : Nat) = if (1 : Nat) = 1 then 0 else n.val; rw [if_pos rfl]
    | ⟨1, _⟩ => by show g.val = if (64 : Nat) = 1 then 0 else g.val; rw [if_neg (by decide)])

/-- Entry (n, g) of the indicator matrix: one when node n's graph id is the word of g, else zero. -/
theorem onehotK_apply (batch : IVec S50000 32) (n : Fin 50000) (g : Fin 64) :
    onehotK batch (ix2 n g) = if batch (ix1 n) = BitVec.ofNat 32 g.val then (1 : EReal) else 0 := by
  have e : onehotK batch (ix2 n g)
      = (((IntOp.cmpi .eq
            (broadcastInDim S50000x64 ![0, 1] bcast_S50000x1_S50000x64_0_1 (shapeCast S50000x1 batch shapeCasts_S50000_S50000x1) (ix2 n g))
            (broadcastInDim S50000x64 ![0, 1] bcast_S1x64_S50000x64_0_1 (iotaInDim S1x64 32 1) (ix2 n g))).toNat : ℝ) : EReal) := rfl
  rw [e, idCol_apply, colNum_apply]
  by_cases h : batch (ix1 n) = BitVec.ofNat 32 g.val
  · have hc : IntOp.cmpi .eq (batch (ix1 n)) (BitVec.ofNat 32 g.val) = 1#1 := IntOp.cmpi_eq.2 h
    rw [if_pos h, hc]
    simp
  · have hc : IntOp.cmpi .eq (batch (ix1 n)) (BitVec.ofNat 32 g.val) = 0#1 :=
      eq_zero_of_ne_one (fun hh => h (IntOp.cmpi_eq.1 hh))
    rw [if_neg h, hc]
    simp

/-- Entry (g, d) of the host's sum of the ten tiles. -/
theorem sumTiles_apply (P : FVec Ideal S10x64x128 .f32) (g : Fin 64) (d : Fin 128) :
    Host.reduceAdd (F := Ideal) P (constant (F := Ideal) S_ .f32 0x00000000#32) reducesTo_S10x64x128_S64x128_d0 h_S_ (ix2 g d)
      = ∑ t : Fin 10, P (ix3 t g d) := by
  simp only [Host.reduceAdd, Ideal.hostReduceAdd_def]
  rw [Ideal.hostReduceAdd_single reducesTo_S10x64x128_S64x128_d0 (by decide)]
  rw [constant_apply, Ideal.ofBits_zero_f32, zero_add]
  refine Finset.sum_congr rfl fun t _ => ?_
  exact congrArg P (funext fun a => Fin.ext (by match a with | ⟨0, _⟩ => rfl | ⟨1, _⟩ => rfl | ⟨2, _⟩ => rfl))

end Cert.KernelIdeal.GinPoolRead

end
-- ==== Proof.PoolLaw.lean ====
/-
  Summing rows per graph, two ways.

  One program adds row n of a fifty-thousand-row matrix H onto row `idx n` of a zero matrix of
  sixty-four rows (a scatter with addition: an update whose target row lies outside the
  sixty-four is dropped). The other multiplies, tile by tile, by the indicator "the word b n is
  the number g" and adds the ten tiles. When the scatter's index column holds the same words
  b n, the two are one sum: an update (n, d') lands on (g, d) exactly when b n read as a signed
  integer is g and d' = d, and a signed 32-bit word equals a number below 64 exactly when it is
  that number's word.
-/
import proofs.«426931_j47957604827354_3_alg».proof.Proof.Spec
import Idealize.ShloMosaic.Lib.ValueIdx
import Idealize.ShloMosaic.PureOps.Ideal

noncomputable section

open scoped BigOperators

namespace Cert.Gin

open Idealize.ShloMosaic Idealize.ShloMosaic.ValueIdx

/-- The index-column position update element (n, d') reads its start index from: row n, the column's one entry.
    The updates' one scatter axis is their row axis and the index vector sits on the column axis, of size one. -/
private theorem rowScatter_siIdx (dsc : ScatterDims (⟨2, ![64, 128]⟩ : Shape) (⟨2, ![50000, 1]⟩ : Shape) (⟨2, ![50000, 128]⟩ : Shape))
    (hu : dsc.updateWindowDims = [1]) (hi : dsc.insertedWindowDims = [0])
    (hs : dsc.scatterDimsToOperandDims = [0]) (hv : dsc.indexVectorDim = 1)
    (n : Fin 50000) (d' : Fin 128) (c : Fin dsc.scatterDimsToOperandDims.length) :
    dsc.siIdx (ix2 n d') c = ix2 n 0 := by
  cases dsc with
  | mk uw iw sd iv wf =>
    dsimp only at hu hi hs hv
    subst hu hi hs hv
    funext a
    match a with
    | ⟨0, _⟩ =>
      unfold ScatterDims.siIdx
      rw [dif_neg (show ¬ ((0 : Nat) = 1) by omega)]
      unfold ScatterDims.siCoord
      apply Fin.ext
      rfl
    | ⟨1, _⟩ =>
      unfold ScatterDims.siIdx
      rw [dif_pos (by rfl)]
      apply Fin.ext
      have hc : c.val < 1 := c.isLt
      show c.val = 0
      omega

/-- On the row axis the window starts at the n-th start index, read signed. -/
private theorem rowScatter_start0 (dsc : ScatterDims (⟨2, ![64, 128]⟩ : Shape) (⟨2, ![50000, 1]⟩ : Shape) (⟨2, ![50000, 128]⟩ : Shape))
    (hu : dsc.updateWindowDims = [1]) (hi : dsc.insertedWindowDims = [0])
    (hs : dsc.scatterDimsToOperandDims = [0]) (hv : dsc.indexVectorDim = 1)
    (idx : IVec (⟨2, ![50000, 1]⟩ : Shape) 32) (n : Fin 50000) (d' : Fin 128) :
    dsc.start (ix2 n d') idx 0 = (idx (ix2 n 0)).toInt := by
  have hm : (0 : Fin (⟨2, ![64, 128]⟩ : Shape).rank) ∈ dsc.scatterDimsToOperandDims := by
    rw [hs]; exact List.mem_singleton.mpr rfl
  unfold ScatterDims.start
  rw [dif_pos hm, rowScatter_siIdx dsc hu hi hs hv]

/-- On the column axis, which the map does not name, the window starts at zero. -/
private theorem rowScatter_start1 (dsc : ScatterDims (⟨2, ![64, 128]⟩ : Shape) (⟨2, ![50000, 1]⟩ : Shape) (⟨2, ![50000, 128]⟩ : Shape))
    (hs : dsc.scatterDimsToOperandDims = [0])
    (idx : IVec (⟨2, ![50000, 1]⟩ : Shape) 32) (n : Fin 50000) (d' : Fin 128) :
    dsc.start (ix2 n d') idx 1 = 0 := by
  have hm : (1 : Fin (⟨2, ![64, 128]⟩ : Shape).rank) ∉ dsc.scatterDimsToOperandDims := by rw [hs]; decide
  unfold ScatterDims.start
  rw [dif_neg hm]

/-- The row axis is inserted: its window coordinate is zero. -/
private theorem rowScatter_window0 (dsc : ScatterDims (⟨2, ![64, 128]⟩ : Shape) (⟨2, ![50000, 1]⟩ : Shape) (⟨2, ![50000, 128]⟩ : Shape))
    (hi : dsc.insertedWindowDims = [0]) (n : Fin 50000) (d' : Fin 128) :
    dsc.window (ix2 n d') 0 = 0 := by
  have hm : (0 : Fin (⟨2, ![64, 128]⟩ : Shape).rank) ∉ dsc.sKept := by
    show (0 : Fin (⟨2, ![64, 128]⟩ : Shape).rank) ∉ (⟨2, ![64, 128]⟩ : Shape).kept dsc.insertedWindowDims
    rw [hi]; decide
  unfold ScatterDims.window
  rw [dif_neg hm]

/-- The column axis is the one kept axis: its window coordinate is the update's column. -/
private theorem rowScatter_window1 (dsc : ScatterDims (⟨2, ![64, 128]⟩ : Shape) (⟨2, ![50000, 1]⟩ : Shape) (⟨2, ![50000, 128]⟩ : Shape))
    (hu : dsc.updateWindowDims = [1]) (hi : dsc.insertedWindowDims = [0])
    (hs : dsc.scatterDimsToOperandDims = [0]) (hv : dsc.indexVectorDim = 1)
    (n : Fin 50000) (d' : Fin 128) :
    dsc.window (ix2 n d') 1 = d'.val := by
  have hm : (1 : Fin (⟨2, ![64, 128]⟩ : Shape).rank) ∈ dsc.sKept := by
    show (1 : Fin (⟨2, ![64, 128]⟩ : Shape).rank) ∈ (⟨2, ![64, 128]⟩ : Shape).kept dsc.insertedWindowDims
    rw [hi]; decide
  cases dsc with
  | mk uw iw sd iv wf =>
    dsimp only at hu hi hs hv
    subst hu hi hs hv
    unfold ScatterDims.window
    rw [dif_pos hm]
    rfl

/-- A signed 32-bit word is the word of a number below 64 exactly when, read signed, it is that number. -/
private theorem word_eq_iff_toInt (w : BitVec 32) (g : Fin 64) :
    w.toInt = (g.val : Int) ↔ w = BitVec.ofNat 32 g.val := by
  have hg := g.isLt
  have key : (BitVec.ofNat 32 g.val).toInt = (g.val : Int) := by
    rw [BitVec.toInt_eq_toNat_cond, BitVec.toNat_ofNat]
    split <;> omega
  constructor
  · intro h
    apply BitVec.toInt_inj.mp
    rw [key]; exact h
  · intro h
    rw [h, key]

/-- Where a row scatter puts update element (n, d'): on (g, d) exactly when the n-th start index, read signed,
    is g and the column is unchanged. `dsc` is any scatter record with the dimension numbers of
    "add rows of a [50000,128] matrix onto rows of a [64,128] matrix, the row taken from a [50000,1] index column". -/
theorem rowScatter_resultIdx (dsc : ScatterDims (⟨2, ![64, 128]⟩ : Shape) (⟨2, ![50000, 1]⟩ : Shape) (⟨2, ![50000, 128]⟩ : Shape))
    (hu : dsc.updateWindowDims = [1]) (hi : dsc.insertedWindowDims = [0])
    (hs : dsc.scatterDimsToOperandDims = [0]) (hv : dsc.indexVectorDim = 1)
    (idx : IVec (⟨2, ![50000, 1]⟩ : Shape) 32) (n : Fin 50000) (d' : Fin 128) (g : Fin 64) (d : Fin 128) :
    dsc.resultIdx? (ix2 n d') idx = some (ix2 g d) ↔ (idx (ix2 n 0)).toInt = (g.val : Int) ∧ d' = d := by
  have h00 := rowScatter_start0 dsc hu hi hs hv idx n d'
  have h01 := rowScatter_start1 dsc hs idx n d'
  have hw0 := rowScatter_window0 dsc hi n d'
  have hw1 := rowScatter_window1 dsc hu hi hs hv n d'
  have hg := g.isLt
  have hd' := d'.isLt
  have hd := d.isLt
  unfold ScatterDims.resultIdx?
  split
  · next h =>
    rw [Option.some.injEq]
    have b0 : 0 ≤ dsc.start (ix2 n d') idx 0 + (dsc.window (ix2 n d') 0 : Int)
        ∧ dsc.start (ix2 n d') idx 0 + (dsc.window (ix2 n d') 0 : Int) < 64 := h 0
    rw [h00, hw0] at b0
    constructor
    · intro hf
      have v0 : (dsc.start (ix2 n d') idx 0 + (dsc.window (ix2 n d') 0 : Int)).toNat = g.val :=
        congrArg Fin.val (congrFun hf 0)
      have v1 : (dsc.start (ix2 n d') idx 1 + (dsc.window (ix2 n d') 1 : Int)).toNat = d.val :=
        congrArg Fin.val (congrFun hf 1)
      rw [h00, hw0] at v0
      rw [h01, hw1] at v1
      exact ⟨by omega, Fin.ext (by omega)⟩
    · rintro ⟨hx, rfl⟩
      funext a
      match a with
      | ⟨0, _⟩ =>
        apply Fin.ext
        show (dsc.start (ix2 n d') idx 0 + (dsc.window (ix2 n d') 0 : Int)).toNat = g.val
        rw [h00, hw0]; omega
      | ⟨1, _⟩ =>
        apply Fin.ext
        show (dsc.start (ix2 n d') idx 1 + (dsc.window (ix2 n d') 1 : Int)).toNat = d'.val
        rw [h01, hw1]; omega
  · next h =>
    constructor
    · intro hf; exact absurd hf (by simp)
    · rintro ⟨hx, rfl⟩
      exfalso; apply h
      intro a
      match a with
      | ⟨0, _⟩ =>
        show 0 ≤ dsc.start (ix2 n d') idx 0 + (dsc.window (ix2 n d') 0 : Int)
          ∧ dsc.start (ix2 n d') idx 0 + (dsc.window (ix2 n d') 0 : Int) < 64
        rw [h00, hw0]; omega
      | ⟨1, _⟩ =>
        show 0 ≤ dsc.start (ix2 n d') idx 1 + (dsc.window (ix2 n d') 1 : Int)
          ∧ dsc.start (ix2 n d') idx 1 + (dsc.window (ix2 n d') 1 : Int) < 128
        rw [h01, hw1]; omega

/-- The tile-by-tile indicator-weighted sum is the scatter's sum. -/
theorem pool_law (dsc : ScatterDims (⟨2, ![64, 128]⟩ : Shape) (⟨2, ![50000, 1]⟩ : Shape) (⟨2, ![50000, 128]⟩ : Shape))
    (hu : dsc.updateWindowDims = [1]) (hi : dsc.insertedWindowDims = [0])
    (hs : dsc.scatterDimsToOperandDims = [0]) (hv : dsc.indexVectorDim = 1)
    (idx : IVec (⟨2, ![50000, 1]⟩ : Shape) 32) (b : Fin 50000 → BitVec 32)
    (hidx : ∀ n : Fin 50000, idx (ix2 n 0) = b n)
    (H : Mat 50000 128) (g : Fin 64) (d : Fin 128) :
    (∑ t : Fin 10, ∑ r : Fin 5000,
        (if b (tileRow t r) = BitVec.ofNat 32 g.val then (1 : EReal) else 0) * H (ix2 (tileRow t r) d))
      = ∑ j ∈ Finset.univ.filter (fun j => dsc.resultIdx? j idx = some (ix2 g d)), H j := by
  -- where update (n, d') lands, in terms of the words b
  have hP : ∀ (n : Fin 50000) (d' : Fin 128),
      dsc.resultIdx? (ix2 n d') idx = some (ix2 g d) ↔ (b n = BitVec.ofNat 32 g.val ∧ d' = d) := by
    intro n d'
    rw [rowScatter_resultIdx dsc hu hi hs hv idx n d' g d, hidx n, word_eq_iff_toInt]
  -- the ten tiles are all the rows; the indicator selects the rows whose word is g's
  refine (pooled_tiles_eq_sum (fun n : Fin 50000 =>
    (if b n = BitVec.ofNat 32 g.val then (1 : EReal) else 0) * H (ix2 n d))).trans ?_
  refine (indicator_sum (fun n : Fin 50000 => b n = BitVec.ofNat 32 g.val) (fun n => H (ix2 n d))).trans ?_
  -- both sides as sums of "the term, or zero"; the right one split into rows and columns
  rw [Finset.sum_filter, Finset.sum_filter, sum_idx2]
  refine Finset.sum_congr rfl fun n _ => ?_
  by_cases hb : b n = BitVec.ofNat 32 g.val
  · -- a selected row: of its 128 updates only column d lands on (g, d)
    rw [if_pos hb, Finset.sum_eq_single d]
    · rw [if_pos ((hP n d).2 ⟨hb, rfl⟩)]
    · intro d' _ hne
      exact if_neg (fun h => hne ((hP n d').1 h).2)
    · intro h; exact absurd (Finset.mem_univ d) h
  · -- a row that is not selected: none of its updates lands on row g
    rw [if_neg hb]
    exact (Finset.sum_eq_zero (fun d' _ => if_neg (fun h => hb ((hP n d').1 h).1))).symm

end Cert.Gin

end
-- ==== Proof.RefPool.lean ====
/-
  The reference's pooling, read at one element.

  The reference adds every node's last-layer row onto the row of a zero matrix that the node's
  graph id names, after wrapping a negative id around by the number of graphs. When no id is
  negative the wrapped id is the id, and entry (g, d) of the pooled sums is then the sum, over
  the ten tiles of five thousand nodes and the nodes of each tile, of the indicator "the id is
  the word of g" times the node's entry d.
-/
import proofs.«426931_j47957604827354_3_alg».proof.Proof.Gen.ReferenceIdeal.Read
import proofs.«426931_j47957604827354_3_alg».proof.Proof.Spec
import proofs.«426931_j47957604827354_3_alg».proof.Proof.PoolLaw
import Idealize.ShloMosaic.Lib.ValueIdx
import Idealize.ShloMosaic.Lib.Pipeline.Value
import Idealize.ShloMosaic.Lib.StableHlo.Predicate
import Idealize.ShloMosaic.PureOps.Ideal.Laws

noncomputable section

open scoped BigOperators

namespace Cert.ReferenceIdeal.GinRefPool

open Idealize.ShloMosaic Idealize.ShloMosaic.TcCoe Idealize.ShloMosaic.ValueIdx
open Cert.ReferenceIdeal Cert.ReferenceIdeal.Gen Cert.ReferenceIdeal.Read

/-- With no negative id the wrapped id column holds the ids themselves. -/
theorem wrapGraph_apply (x2 : IVec S50000 32) (hb : ∀ n : Fin 50000, 0 ≤ (x2 (ix1 n)).toInt) (n : Fin 50000) :
    val_main_v96 (F := Ideal) x2 (ix2 n 0) = x2 (ix1 n) := by
  -- entry (n, 0) of the column reads entry n of the wrapped vector
  have hi : idx_main_v96 (ix2 n 0) = ix1 n := by
    funext a
    match a with
    | ⟨0, _⟩ => rfl
  rw [val_main_v96_apply, hi, val_main_v95_apply, val_main_v92_apply, val_main_v91_apply, val_main_c_14_apply]
  -- the id is not below zero, so the comparison's bit is 0 and the select keeps the id
  have hc : IntOp.cmpi .slt (x2 (ix1 n)) 0#32 = 0#1 := by
    apply eq_zero_of_ne_one
    rw [IntOp.cmpi_slt]
    have h0 : (0#32 : BitVec 32).toInt = 0 := by decide
    rw [h0]
    have := hb n
    omega
  rw [hc, select_zero]

/-- Entry (g, d) of the reference's pooled sums, for any last-layer matrix H, when no id is negative. -/
theorem refPool_apply (x2 : IVec S50000 32) (hb : ∀ n : Fin 50000, 0 ≤ (x2 (ix1 n)).toInt)
    (H : FVec Ideal S50000x128 .f32) (g : Fin 64) (d : Fin 128) :
    Host.scatterAdd (F := Ideal) scatter_S64x128_S50000x1_S50000x128_1_0_0_1 (val_main_v90 (F := Ideal)) (val_main_v96 (F := Ideal) x2) H (ix2 g d)
      = ∑ t : Fin 10, ∑ r : Fin 5000,
          (if x2 (ix1 (Cert.Gin.tileRow t r)) = BitVec.ofNat 32 g.val then (1 : EReal) else 0) * H (ix2 (Cert.Gin.tileRow t r) d) := by
  -- the scatter with addition: the operand's entry plus the sum of the updates landing on it
  unfold Host.scatterAdd
  rw [Ideal.hostScatterAdd_def]
  unfold Ideal.hostScatterAdd
  -- the operand is the zero matrix
  rw [val_main_v90_apply, val_main_cst_13_apply, Ideal.ofBits_def, Ideal.ofBits_zero_f32, zero_add]
  exact (Cert.Gin.pool_law scatter_S64x128_S50000x1_S50000x128_1_0_0_1 rfl rfl rfl rfl
    (val_main_v96 (F := Ideal) x2) (fun n => x2 (ix1 n)) (wrapGraph_apply x2 hb) H g d).symm

end Cert.ReferenceIdeal.GinRefPool

end
-- ==== Proof.BridgePool.lean ====
/-
  The pooled sums of the two programs are the same array.

  The third call leaves, per tile of five thousand nodes, the indicator-weighted sums of the
  last layer's rows, and the host adds the ten tiles; the reference adds every node's last
  layer row onto its graph's row. The rows are the same (the perceptron of the same aggregated
  features), the indicator is "the graph id is the word of g", and when no graph id is negative
  the two sums are one (`Cert.Gin.pool_law`).
-/
import proofs.«426931_j47957604827354_3_alg».proof.Proof.KFold
import proofs.«426931_j47957604827354_3_alg».proof.Proof.KRegion2
import proofs.«426931_j47957604827354_3_alg».proof.Proof.PoolRead
import proofs.«426931_j47957604827354_3_alg».proof.Proof.RefMlp
import proofs.«426931_j47957604827354_3_alg».proof.Proof.RefPool
import proofs.«426931_j47957604827354_3_alg».proof.Proof.RefLayers
import proofs.«426931_j47957604827354_3_alg».proof.Proof.BridgeLayers
import proofs.«426931_j47957604827354_3_alg».proof.Proof.Gen.ReferenceIdeal.Read
import proofs.«426931_j47957604827354_3_alg».proof.Proof.Spec
import Idealize.ShloMosaic.Lib.ValueIdx

set_option maxRecDepth 16384

noncomputable section

open scoped BigOperators

namespace Cert.GinBridge

open Idealize.ShloMosaic Idealize.ShloMosaic.TcCoe Idealize.SL.Sem Idealize.ShloMosaic.ValueIdx
open Cert.KernelIdeal Cert.KernelIdeal.Gen Cert.KernelIdeal.GinFold Cert.KernelIdeal.GinFoldArgs

variable (m : (ℓ : Loc nD τ sig) → Buf (Elt Ideal) ℓ) (ρ : Dev nD → PrngReg)

/-- The sum of the third call's ten tiles is the reference's pooled sums, when no graph id is negative. -/
theorem sums_eq (c : Dev nD)
    (hb : ∀ n : Fin 50000, 0 ≤ (((m ((c.tc : Thread nD τ).loc main_arg2)) : IVec S50000 32) (ix1 n)).toInt) :
    sumTilesK ((dat2 (F := Ideal) (V5 m ρ) c).arrAt 6 cfg2.N)
      = Cert.ReferenceIdeal.Read.val_main_v97 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  funext i
  obtain ⟨g, d, rfl⟩ : ∃ (g : Fin 64) (d : Fin 128), i = ix2 g d := ⟨i 0, i 1, eq_ix2 i⟩
  -- the kernel's side: the sum over the ten tiles of the call's output entries
  unfold sumTilesK
  rw [Cert.KernelIdeal.GinPoolRead.sumTiles_apply]
  -- the reference's side: the indicator-weighted double sum of the last layer's rows
  unfold Cert.ReferenceIdeal.Read.val_main_v97
  rw [Cert.ReferenceIdeal.GinRefPool.refPool_apply _ hb]
  -- the arrays the third call reads
  have hoh : GinRegion2.oharr (V5 m ρ) c = onehotK (m ((c.tc : Thread nD τ).loc main_arg2)) := W5_onehot m ρ c
  have hx : GinRegion2.xarr (V5 m ρ) c
      = Cert.ReferenceIdeal.Read.val_main_v79 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := agg3_eq m ρ c
  have hw1 : GinRegion2.w1arr (V5 m ρ) c = (m ((c.tc : Thread nD τ).loc main_arg11)) := W5_arg11 m ρ c
  have hb1 : GinRegion2.b1arr (V5 m ρ) c = (m ((c.tc : Thread nD τ).loc main_arg12)) := W5_arg12 m ρ c
  have hw2 : GinRegion2.w2arr (V5 m ρ) c = (m ((c.tc : Thread nD τ).loc main_arg13)) := W5_arg13 m ρ c
  have hb2 : GinRegion2.b2arr (V5 m ρ) c = (m ((c.tc : Thread nD τ).loc main_arg14)) := W5_arg14 m ρ c
  refine Finset.sum_congr rfl fun t _ => ?_
  have hreg : (dat2 (F := Ideal) (V5 m ρ) c).arrAt 6 cfg2.N (ix3 t g d) = _ := GinRegion2.region2_apply (V5 m ρ) c t g d
  rw [hreg]
  refine Finset.sum_congr rfl fun r _ => ?_
  rw [hoh, hx, hw1, hb1, hw2, hb2, Cert.KernelIdeal.GinPoolRead.onehotK_apply,
    Cert.GinRefLayers.layer3_mlp, Cert.ReferenceIdeal.GinRef.hostMlp_apply]

end Cert.GinBridge

end
-- ==== Proof.RefHead.lean ====
/-
  The reference's classifier head, as the same host functions the three-call program names.

  After pooling, both programs divide the per-graph sums by the per-graph node counts (at
  least one), apply a dense layer and the rectifier, a second dense layer, and the softmax
  along the classes. The only difference in spelling is how the counts become a column: one
  program reshapes the vector [64] to [64,1], the other broadcasts it along a new last axis of
  extent one; both read entry g at (g, 0).
-/
import proofs.«426931_j47957604827354_3_alg».proof.Proof.Gen.ReferenceIdeal.Read
import proofs.«426931_j47957604827354_3_alg».proof.Proof.KFold
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws

set_option maxRecDepth 16384

noncomputable section

namespace Cert.GinRefHead

open Idealize.ShloMosaic Idealize.ShloMosaic.TcCoe Idealize.ShloMosaic.ValueIdx
open Cert.ReferenceIdeal.Read Cert.KernelIdeal.GinFold

/-- The counts as a column repeated along the features: the two spellings are one function. -/
theorem counts_col (x2 : IVec Cert.ReferenceIdeal.S50000 32) : val_main_v110 (F := Ideal) x2 = countsColK x2 := by
  -- the counts: the same scatter of ones, floored at one, in the two spellings
  have hc : val_main_v108 (F := Ideal) x2 = countsK x2 := by
    unfold val_main_v108 val_main_v107 val_main_v106 val_main_v105 val_main_v104 val_main_v103 val_main_v102
      val_main_v101 val_main_v100 val_main_v99 val_main_v98 val_main_cst_16 val_main_cst_19 val_main_cst_20
      val_main_c_17 val_main_c_18 countsK wrapGraph
    rfl
  unfold val_main_v110 val_main_v109 countsColK
  rw [hc]
  generalize countsK x2 = cnt
  -- a vector broadcast along a new last axis of extent one is the vector reshaped to a column: both read g at (g, 0)
  have hcol : broadcastInDim Cert.ReferenceIdeal.S64x1 ![0] Cert.ReferenceIdeal.Facts₀.bcast_S64_S64x1_0 cnt
      = shapeCast Cert.KernelIdeal.S64x1 cnt Cert.KernelIdeal.Facts₀.shapeCasts_S64_S64x1 := by
    funext j
    obtain ⟨g, u, rfl⟩ : ∃ (g : Fin 64) (u : Fin 1), j = ix2 g u := ⟨j 0, j 1, eq_ix2 j⟩
    refine (broadcastInDim_apply ![0] Cert.ReferenceIdeal.Facts₀.bcast_S64_S64x1_0 cnt (ix2 g u) (ix1 g) (fun a => match a with
      | ⟨0, _⟩ => by show g.val = if (64 : Nat) = 1 then 0 else g.val; rw [if_neg (by decide)])).trans ?_
    refine (shapeCast_apply cnt Cert.KernelIdeal.Facts₀.shapeCasts_S64_S64x1 (ix2 g u) (ix1 g) ?_).symm
    have hu : u.val = 0 := by omega
    rw [Shape.rowMajor_val_one, Shape.rowMajor_val_two]
    show g.val = g.val * 1 + u.val
    omega
  rw [hcol]

/-- The reference's result is the head's functions of its pooled sums, its counts column and the head's weights. -/
theorem head_eq (x0 : FVec Ideal Cert.ReferenceIdeal.S50000x128 .f32) (x1 : IVec Cert.ReferenceIdeal.S2x600000 32) (x2 : IVec Cert.ReferenceIdeal.S50000 32) (x3 : FVec Ideal Cert.ReferenceIdeal.S128x128 .f32) (x4 : FVec Ideal Cert.ReferenceIdeal.S128 .f32) (x5 : FVec Ideal Cert.ReferenceIdeal.S128x128 .f32) (x6 : FVec Ideal Cert.ReferenceIdeal.S128 .f32) (x7 : FVec Ideal Cert.ReferenceIdeal.S128x128 .f32) (x8 : FVec Ideal Cert.ReferenceIdeal.S128 .f32) (x9 : FVec Ideal Cert.ReferenceIdeal.S128x128 .f32) (x10 : FVec Ideal Cert.ReferenceIdeal.S128 .f32) (x11 : FVec Ideal Cert.ReferenceIdeal.S128x128 .f32) (x12 : FVec Ideal Cert.ReferenceIdeal.S128 .f32) (x13 : FVec Ideal Cert.ReferenceIdeal.S128x128 .f32) (x14 : FVec Ideal Cert.ReferenceIdeal.S128 .f32) (x15 : FVec Ideal Cert.ReferenceIdeal.S128x128 .f32) (x16 : FVec Ideal Cert.ReferenceIdeal.S128 .f32) (x17 : FVec Ideal Cert.ReferenceIdeal.S128x10 .f32) (x18 : FVec Ideal Cert.ReferenceIdeal.S10 .f32) :
    val_main_v131 (F := Ideal) x0 x1 x2 x3 x4 x5 x6 x7 x8 x9 x10 x11 x12 x13 x14 x15 x16 x17 x18
      = softmaxK (logitsK (reluK (preactK (val_main_v97 (F := Ideal) x0 x1 x2 x3 x4 x5 x6 x7 x8 x9 x10 x11 x12 x13 x14) (val_main_v110 (F := Ideal) x2) x15 x16)) x17 x18) := by
  unfold val_main_v131 val_main_v130 val_main_v129 val_main_v128 val_main_v127 val_main_v126 val_main_v125
    val_main_v124 val_main_v123 val_main_v122 val_main_v121 val_main_v120 val_main_v119 val_main_v118 val_main_v117
    val_main_v116 val_main_v115 val_main_v114 val_main_v113 val_main_v112 val_main_v111 val_main_call6_v0
    val_main_call6_cst val_main_cst_21 val_main_cst_22 val_main_cst_23
  generalize val_main_v97 (F := Ideal) x0 x1 x2 x3 x4 x5 x6 x7 x8 x9 x10 x11 x12 x13 x14 = sums
  generalize val_main_v110 (F := Ideal) x2 = cnt
  unfold softmaxK logitsK reluK preactK
  rfl

end Cert.GinRefHead

end
-- ==== Proof.Bridge.lean ====
/-
  Where the two programs meet.

  Layer by layer the three-call program and the reference compute the same arrays: the
  aggregated features are the same host function of the previous layer's output and the edge
  list; each call's output row is the two-layer perceptron of the matching input row, and so is
  the reference's dense block; so the outputs agree. After the third layer the reference adds
  every node's row onto its graph's row; the program's third call leaves, per tile of five
  thousand nodes, the indicator-weighted sums of the same rows, and the host adds the ten
  tiles. When no graph id is negative the two sums are one (`Cert.Gin.pool_law`); the
  classifier head after them is the same chain of host operations on both sides.
-/
import proofs.«426931_j47957604827354_3_alg».proof.Proof.KFold
import proofs.«426931_j47957604827354_3_alg».proof.Proof.BridgeLayers
import proofs.«426931_j47957604827354_3_alg».proof.Proof.BridgePool
import proofs.«426931_j47957604827354_3_alg».proof.Proof.RefHead
import proofs.«426931_j47957604827354_3_alg».proof.Proof.Gen.ReferenceIdeal.Read
import proofs.«426931_j47957604827354_3_alg».proof.Proof.Spec
import Idealize.ShloMosaic.Lib.ValueIdx

set_option maxRecDepth 16384

noncomputable section

open scoped BigOperators

namespace Cert.GinBridge

open Idealize.ShloMosaic Idealize.ShloMosaic.TcCoe Idealize.SL.Sem Idealize.ShloMosaic.ValueIdx
open Cert.KernelIdeal Cert.KernelIdeal.Gen Cert.KernelIdeal.GinFold Cert.KernelIdeal.GinFoldArgs

variable (m : (ℓ : Loc nD τ sig) → Buf (Elt Ideal) ℓ) (ρ : Dev nD → PrngReg)

/-- The program's result is the reference's, when no graph id is negative. -/
theorem result_eq (c : Dev nD)
    (hb : ∀ n : Fin 50000, 0 ≤ (((m ((c.tc : Thread nD τ).loc main_arg2)) : IVec S50000 32) (ix1 n)).toInt) :
    (W9 m ρ c (Proc.devRef .tc main_v89) : FVec Ideal S64x10 .f32)
      = Cert.ReferenceIdeal.Read.val_main_v131 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  rw [W9_result m ρ c, W6_out m ρ c, sums_eq m ρ c hb, Cert.GinRefHead.head_eq, Cert.GinRefHead.counts_col]

end Cert.GinBridge

end
-- ==== Proof.PreBatch.lean ====
/-
  What the precondition says about the graph ids.

  The precondition is a conjunction, evaluated to one bit: every float input is finite, and
  every entry of the graph-id vector is at least zero (a signed comparison against the zero
  word, reduced by "and" over all fifty thousand entries). The last conjunct is the outermost
  "and", so the bit being one gives that conjunct, and the reduction being one gives the
  comparison at every entry.
-/
import proofs.«426931_j47957604827354_3_alg».proof.Pre_finite_inputs
import Idealize.ShloMosaic.Lib.ValueIdx
import Idealize.ShloMosaic.Lib.ReduceAll
import Idealize.ShloMosaic.Lib.StableHlo.Predicate

noncomputable section

namespace Cert.GinPre

open Idealize.ShloMosaic Idealize.ShloMosaic.ValueIdx
open Cert.Pre_finite_inputs

variable [Cert.Pre_finite_inputs.Facts]

/-- A scalar (rank-0) array has one index. -/
instance subsingleton_scalar_idx : Subsingleton S_.Idx := ⟨fun a b => funext fun d => d.elim0⟩

/-- The last four operations of the precondition, on their own: if the final "and" is one at the one
    index, and the comparison's right operand is the zero word everywhere, then every entry of the
    left operand is non-negative as a signed integer. -/
theorem part5_nonneg (a2 : IVec S50000 32) (v83 : IVec S_ 1) (v84 : IVec S50000 32)
    (hz : ∀ j, v84 j = 0#32)
    (e : fn_part5 (F := Ideal) a2 v83 v84 ix0 = 1#1) (n : Fin 50000) : 0 ≤ (a2 (ix1 n)).toInt := by
  unfold fn_part5 at e
  -- the outermost "and": its second operand is the reduction
  have e1 : IntOp.andi (v83 ix0)
      (Host.reduce IntOp.andi (cmpi .sge a2 v84) (constantI S_ 1 1#1) Facts.reducesTo_S50000_S_d0 Facts.h_S_ ix0) = 1#1 := e
  have e2 := (IntOp.andi_eq_one.1 e1).2
  -- the reduction by "and" being one, every compared entry is one
  have e3 : cmpi .sge a2 v84 (ix1 n) = 1#1 :=
    Host.reduce_andi_all _ _ Facts.reducesTo_S50000_S_d0 Facts.h_S_ ix0 e2 (ix1 n)
  have e4 : IntOp.cmpi .sge (a2 (ix1 n)) (v84 (ix1 n)) = 1#1 := e3
  rw [hz, IntOp.cmpi_sge] at e4
  have h0 : (0#32 : BitVec 32).toInt = 0 := by decide
  rwa [h0] at e4

/-- Under the precondition every graph id, read as a signed 32-bit integer, is non-negative. -/
theorem batch_nonneg
    (a0 : FVec Ideal S50000x128 .f32) (a1 : IVec S2x600000 32) (a2 : IVec S50000 32)
    (a3 : FVec Ideal S128x128 .f32) (a4 : FVec Ideal S128 .f32) (a5 : FVec Ideal S128x128 .f32) (a6 : FVec Ideal S128 .f32)
    (a7 : FVec Ideal S128x128 .f32) (a8 : FVec Ideal S128 .f32) (a9 : FVec Ideal S128x128 .f32) (a10 : FVec Ideal S128 .f32)
    (a11 : FVec Ideal S128x128 .f32) (a12 : FVec Ideal S128 .f32) (a13 : FVec Ideal S128x128 .f32) (a14 : FVec Ideal S128 .f32)
    (a15 : FVec Ideal S128x128 .f32) (a16 : FVec Ideal S128 .f32) (a17 : FVec Ideal S128x10 .f32) (a18 : FVec Ideal S10 .f32)
    (h : Cert.Pre_finite_inputs.fn (F := Ideal) a0 a1 a2 a3 a4 a5 a6 a7 a8 a9 a10 a11 a12 a13 a14 a15 a16 a17 a18 = fun _ => 1#1)
    (n : Fin 50000) : 0 ≤ (a2 (ix1 n)).toInt := by
  have e := congrFun h ix0
  exact part5_nonneg a2 _ _ (fun _ => rfl) e n

end Cert.GinPre

end
-- ==== Proof.lean ====
/-
  A three-layer graph isomorphism network with mean pooling and a softmax classifier head:
  the three-call program against its plain reference, over the extended reals.

  Every layer first aggregates, for each node, its own feature row and the rows of the nodes
  its incoming edges name: the reference adds the gathered rows onto zero and then adds the
  features, the program adds them onto the features at once, and on the extended reals
  x + (0 + s) = x + s. It then applies two dense layers, each followed by the rectifier, to
  every row: the program does so in tiles of five thousand rows with the operands narrowed to
  a shorter float format first, which at exact values is the identity, so each output row is
  the same function of the matching input row on both sides. After the third layer the rows
  are summed per graph. The reference scatters each node's row onto the row its graph id
  names; the program multiplies each tile by the indicator matrix "node n has graph id g" and
  adds the ten tiles. Array indexing wraps a negative id around, the indicator does not: under
  the precondition's last conjunct, that no graph id is negative, the wrapped id is the id and
  the two sums are one sum regrouped (ten tiles of five thousand rows are all the rows; an
  indicator-weighted sum is the sum over the selected rows). No finiteness is used: only that
  addition of extended reals is commutative and associative and that 0 · x = 0, 1 · x = x.
  The per-graph counts, the division, the classifier's two dense layers and the softmax are
  the same host operations on both sides, carried as one chain.

  The three frames are the generated ones (the reference's is its generated run with the
  result dropped); the idealization's ledger is empty.
-/
import proofs.«426931_j47957604827354_3_alg».proof.Defs
import proofs.«426931_j47957604827354_3_alg».proof.Proof.Gen.Kernel
import proofs.«426931_j47957604827354_3_alg».proof.Proof.Gen.Kernel.Skeleton
import proofs.«426931_j47957604827354_3_alg».proof.Proof.Gen.Kernel.Launch
import proofs.«426931_j47957604827354_3_alg».proof.Proof.Gen.Kernel.Points
import proofs.«426931_j47957604827354_3_alg».proof.Proof.Gen.Kernel.Frame
import proofs.«426931_j47957604827354_3_alg».proof.Proof.Gen.KernelIdeal
import proofs.«426931_j47957604827354_3_alg».proof.Proof.Gen.KernelIdeal.Skeleton
import proofs.«426931_j47957604827354_3_alg».proof.Proof.Gen.KernelIdeal.Launch
import proofs.«426931_j47957604827354_3_alg».proof.Proof.Gen.KernelIdeal.Points
import proofs.«426931_j47957604827354_3_alg».proof.Proof.Gen.KernelIdeal.Frame
import proofs.«426931_j47957604827354_3_alg».proof.Proof.Gen.ReferenceIdeal
import proofs.«426931_j47957604827354_3_alg».proof.Proof.Gen.ReferenceIdeal.Run
import proofs.«426931_j47957604827354_3_alg».proof.Proof.Gen.ReferenceIdeal.Read
import proofs.«426931_j47957604827354_3_alg».proof.Proof.Gen.Pre_finite_inputs
import proofs.«426931_j47957604827354_3_alg».proof.Proof.KRun
import proofs.«426931_j47957604827354_3_alg».proof.Proof.Bridge
import proofs.«426931_j47957604827354_3_alg».proof.Proof.PreBatch
import Idealize.ShloMosaic.Adequacy
import Idealize.ShloMosaic.Init

set_option maxRecDepth 16384

noncomputable section

namespace Cert.Proof

open Idealize.ShloMosaic Idealize.SL.Sem

/-- The word-level program runs and keeps its arguments: the generated frame. -/
theorem frame_kernel [Cert.Kernel.Facts] [Cert.Pre_finite_inputs.Facts] : Cert.frame_Kernel :=
  fun m ρ _ => Cert.Kernel.Gen.frame m ρ
/-- The idealized program runs and keeps its arguments: the generated frame. -/
theorem frame_kernelIdeal [Cert.KernelIdeal.Facts] [Cert.Pre_finite_inputs.Facts] : Cert.frame_KernelIdeal :=
  fun m ρ _ => Cert.KernelIdeal.Gen.frame m ρ
/-- The reference runs and keeps its arguments: its generated run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories agreeing on the arguments both idealized programs end with the reference's result, a function of
    the argument arrays: the program's run ends at the fold's last valuation, which is that function when no
    graph id is negative; the reference's run ends at its composed term, which is that function by construction. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.ReferenceIdeal.Read.val_main_v131 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · refine (θ_run Cert.KernelIdeal.defs _ _).mono (fun r h c => ⟨(h c).1.trans ?_, (h c).2⟩)
      (Cert.KernelIdeal.GinRun.run_result (F := Ideal) m ρ)
    exact Cert.GinBridge.result_eq m ρ c (fun n => Cert.GinPre.batch_nonneg _ _ _ _ _ _ _ _ _ _ _ _ _ _ _ _ _ _ _ (hpre c) n)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v131_eq m' c]
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
